-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x64x4096 : S_.BroadcastsInDim S4x64x4096 (![] : Fin 0 → Fin S4x64x4096.rank)
  reducesTo_S4x64x4096_S_d0_1_2 : S4x64x4096.ReducesTo [0, 1, 2] S_
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S4x4096x3 .f32) (main_arg1 : FVec F S4x64x4096 .f32) (main_arg2 : IVec S4096x32 32) (main_arg3 : FVec F S64x6 .f32) (main_arg4 : FVec F S64 .f32) (main_arg5 : FVec F S64 .f32) (main_arg6 : FVec F S64x64 .f32) (main_arg7 : FVec F S64 .f32) (main_arg8 : FVec F S64 .f32) (main_arg9 : FVec F S128x128 .f32) (main_arg10 : FVec F S128 .f32) (main_arg11 : FVec F S128 .f32) (main_arg12 : FVec F S64x128 .f32) (main_arg13 : FVec F S64 .f32) (main_arg14 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_v9 : FVec F S64x6 .f32 := Host.absf main_arg3
  let main_cst_2 : FVec F S_ .f32 := constant S_ .f32 0x7F800000#32
  let main_v10 : FVec F S64x6 .f32 := broadcastInDim S64x6 ![] bcast_S_S64x6 main_cst_2
  let main_v11 : IVec S64x6 1 := cmpf .olt main_v9 main_v10
  let main_c_3 : IVec S_ 1 := constantI S_ 1 1#1
  let main_v12 : IVec S_ 1 := (fun x v => Host.reduce IntOp.andi x v reducesTo_S64x6_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S4x4096x64 : Shape := ⟨3, ![4, 4096, 64]⟩
abbrev S_ : Shape := ⟨0, ![]⟩
abbrev S4096x32x1 : Shape := ⟨3, ![4096, 32, 1]⟩
abbrev S4x4096x32x3 : Shape := ⟨4, ![4, 4096, 32, 3]⟩
abbrev S4x4096x32x64 : Shape := ⟨4, ![4, 4096, 32, 64]⟩
abbrev S4x4096x1x3 : Shape := ⟨4, ![4, 4096, 1, 3]⟩
abbrev S4x4096x32x6 : Shape := ⟨4, ![4, 4096, 32, 6]⟩
abbrev S4x4096x1x64 : Shape := ⟨4, ![4, 4096, 1, 64]⟩
abbrev S4x131072x6 : Shape := ⟨3, ![4, 131072, 6]⟩
abbrev S4x131072x64 : Shape := ⟨3, ![4, 131072, 64]⟩
abbrev S6x64 : Shape := ⟨2, ![6, 64]⟩
abbrev S128x64 : Shape := ⟨2, ![128, 64]⟩
abbrev S1x8192x6 : Shape := ⟨3, ![1, 8192, 6]⟩
abbrev S1x8192x64 : Shape := ⟨3, ![1, 8192, 64]⟩
abbrev S1x256x64 : Shape := ⟨3, ![1, 256, 64]⟩
abbrev S8192x6 : Shape := ⟨2, ![8192, 6]⟩
abbrev S8192x64 : Shape := ⟨2, ![8192, 64]⟩
abbrev S1x64 : Shape := ⟨2, ![1, 64]⟩
abbrev S8192x128 : Shape := ⟨2, ![8192, 128]⟩
abbrev S1x128 : Shape := ⟨2, ![1, 128]⟩
abbrev S256x32x128 : Shape := ⟨3, ![256, 32, 128]⟩
abbrev S256x128 : Shape := ⟨2, ![256, 128]⟩
abbrev S256x64 : Shape := ⟨2, ![256, 64]⟩

abbrev nBuf : Space → Nat
  | .hbm => 49
  | .vmem => 18
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4096x32, .i32⟩
  | .hbm, ⟨3, _⟩ => ⟨S64x6, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S4x4096x64, .f32⟩
  | .hbm, ⟨16, _⟩ => ⟨S_, .i32⟩
  | .hbm, ⟨17, _⟩ => ⟨S4096x32, .i32⟩
  | .hbm, ⟨18, _⟩ => ⟨S4096x32, .i1⟩
  | .hbm, ⟨19, _⟩ => ⟨S_, .i32⟩
  | .hbm, ⟨20, _⟩ => ⟨S4096x32, .i32⟩
  | .hbm, ⟨21, _⟩ => ⟨S4096x32, .i32⟩
  | .hbm, ⟨22, _⟩ => ⟨S4096x32, .i32⟩
  | .hbm, ⟨23, _⟩ => ⟨S4096x32x1, .i32⟩
  | .hbm, ⟨24, _⟩ => ⟨S4x4096x32x3, .f32⟩
  | .hbm, ⟨25, _⟩ => ⟨S_, .i32⟩
  | .hbm, ⟨26, _⟩ => ⟨S4096x32, .i32⟩
  | .hbm, ⟨27, _⟩ => ⟨S4096x32, .i1⟩
  | .hbm, ⟨28, _⟩ => ⟨S_, .i32⟩
  | .hbm, ⟨29, _⟩ => ⟨S4096x32, .i32⟩
  | .hbm, ⟨30, _⟩ => ⟨S4096x32, .i32⟩
  | .hbm, ⟨31, _⟩ => ⟨S4096x32, .i32⟩
  | .hbm, ⟨32, _⟩ => ⟨S4096x32x1, .i32⟩
  | .hbm, ⟨33, _⟩ => ⟨S4x4096x32x64, .f32⟩
  | .hbm, ⟨34, _⟩ => ⟨S4x4096x1x3, .f32⟩
  | .hbm, ⟨35, _⟩ => ⟨S4x4096x32x3, .f32⟩
  | .hbm, ⟨36, _⟩ => ⟨S4x4096x32x6, .f32⟩
  | .hbm, ⟨37, _⟩ => ⟨S4x4096x1x64, .f32⟩
  | .hbm, ⟨38, _⟩ => ⟨S4x4096x32x64, .f32⟩
  | .hbm, ⟨39, _⟩ => ⟨S4x4096x32x64, .f32⟩
  | .hbm, ⟨40, _⟩ => ⟨S4x131072x6, .f32⟩
  | .hbm, ⟨41, _⟩ => ⟨S4x131072x64, .f32⟩
  | .hbm, ⟨42, _⟩ => ⟨S6x64, .f32⟩
  | .hbm, ⟨43, _⟩ => ⟨S64x64, .f32⟩
  | .hbm, ⟨44, _⟩ => ⟨S128x128, .f32⟩
  | .hbm, ⟨45, _⟩ => ⟨S128x64, .f32⟩
  | .hbm, ⟨46, _⟩ => ⟨S4x4096x64, .f32⟩
  | .hbm, ⟨47, _⟩ => ⟨S4x64x4096, .f32⟩
  | .hbm, ⟨48, _⟩ => ⟨S4x64x4096, .f32⟩
  | .local _ .vmem, ⟨0, _⟩ => ⟨S1x8192x6, .f32⟩
  | .local _ .vmem, ⟨1, _⟩ => ⟨S1x8192x6, .f32⟩
  | .local _ .vmem, ⟨2, _⟩ => ⟨S1x8192x64, .f32⟩
  | .local _ .vmem, ⟨3, _⟩ => ⟨S1x8192x64, .f32⟩
  | .local _ .vmem, ⟨4, _⟩ => ⟨S6x64, .f32⟩
  | .local _ .vmem, ⟨5, _⟩ => ⟨S64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S64, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128x64, .f32⟩
  | .local _ .vmem, ⟨14, _⟩ => ⟨S64, .f32⟩
  | .local _ .vmem, ⟨15, _⟩ => ⟨S64, .f32⟩
  | .local _ .vmem, ⟨16, _⟩ => ⟨S1x256x64, .f32⟩
  | .local _ .vmem, ⟨17, _⟩ => ⟨S1x256x64, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  transposes_S4x64x4096_S4x4096x64_0_2_1 : S4x64x4096.Transposes [0, 2, 1] S4x4096x64
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4x4096x3_S4x4096x1x3_0_1_3 : S4x4096x3.BroadcastsInDim S4x4096x1x3 (![0, 1, 3] : Fin 3 → Fin S4x4096x1x3.rank)
  bcast_S4x4096x1x3_S4x4096x32x3_0_1_2_3 : S4x4096x1x3.BroadcastsInDim S4x4096x32x3 (![0, 1, 2, 3] : Fin 4 → Fin S4x4096x32x3.rank)
  concatenates_S4x4096x32x3_S4x4096x32x3_S4x4096x32x6_d3 : Shape.Concatenates [S4x4096x32x3, S4x4096x32x3] S4x4096x32x6 3
  bcast_S4x4096x64_S4x4096x1x64_0_1_3 : S4x4096x64.BroadcastsInDim S4x4096x1x64 (![0, 1, 3] : Fin 3 → Fin S4x4096x1x64.rank)
  bcast_S4x4096x1x64_S4x4096x32x64_0_1_2_3 : S4x4096x1x64.BroadcastsInDim S4x4096x32x64 (![0, 1, 2, 3] : Fin 4 → Fin S4x4096x32x64.rank)
  shapeCasts_S4x4096x32x6_S4x131072x6 : S4x4096x32x6.ShapeCasts S4x131072x6
  shapeCasts_S4x4096x32x64_S4x131072x64 : S4x4096x32x64.ShapeCasts S4x131072x64
  transposes_S64x6_S6x64_1_0 : S64x6.Transposes [1, 0] S6x64
  transposes_S64x64_S64x64_1_0 : S64x64.Transposes [1, 0] S64x64
  transposes_S128x128_S128x128_1_0 : S128x128.Transposes [1, 0] S128x128
  transposes_S64x128_S128x64_1_0 : S64x128.Transposes [1, 0] S128x64
  inb_S1x8192x6_S1x8192x6_0_0_0 : ∀ a, (![0, 0, 0] : Fin 3 → Nat) a + S1x8192x6.size a ≤ S1x8192x6.size a
  h_S1x8192x6 : 0 < S1x8192x6.numel
  shapeCasts_S1x8192x6_S8192x6 : S1x8192x6.ShapeCasts S8192x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S8192x64_S8192x64_S8192x128_d1 : Shape.Concatenates [S8192x64, S8192x64] S8192x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S256x32x128 : S8192x128.ShapeCasts S256x32x128
  reduces_S256x32x128_S256x128 : S256x32x128.Reduces [1] S256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S256x64 : S1x64.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  transposes_S4x4096x64_S4x64x4096_0_2_1 : S4x4096x64.Transposes [0, 2, 1] S4x64x4096
  gather_S4x4096x3_S4096x32x1_S4x4096x32x3_03_1_n_n_1_2_413_wf : GatherDims.WF S4x4096x3 S4096x32x1 S4x4096x32x3 [0, 3] [1] [] [1] [] 2 ![4, 1, 3]
  gather_S4x4096x64_S4096x32x1_S4x4096x32x64_03_1_n_n_1_2_4164_wf : GatherDims.WF S4x4096x64 S4096x32x1 S4x4096x32x64 [0, 3] [1] [] [1] [] 2 ![4, 1, 64]
  dot_S8192x6_S6x64_S8192x64_1_0_0_1_n_n_wf : DotDims.WF S8192x6 S6x64 S8192x64 [1] [0] [0] [1] [] []
  dot_S8192x64_S64x64_S8192x64_1_0_0_1_n_n_wf : DotDims.WF S8192x64 S64x64 S8192x64 [1] [0] [0] [1] [] []
  dot_S8192x128_S128x128_S8192x128_1_0_0_1_n_n_wf : DotDims.WF S8192x128 S128x128 S8192x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x6.size a ≤ S4x131072x6.size a
  hwx0_0 : ∀ i : grid0.Coords, EltTy.bits .f32 = 32 ∨ (Rect.block (s := S4x131072x6) S1x8192x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S4x131072x64.size a
  hwx0_1 : ∀ i : grid0.Coords, EltTy.bits .f32 = 32 ∨ (Rect.block (s := S4x131072x64) S1x8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256x64.size a ≤ S4x4096x64.size a
  hwx0_14 : ∀ i : grid0.Coords, EltTy.bits .f32 = 32 ∨ (Rect.block (s := S4x4096x64) S1x256x64.size (cc0_transform_14 i) (hinb0_14 i)).WholeWords (EltTy.packing .f32)

variable [Facts₀]

def gather_S4x4096x3_S4096x32x1_S4x4096x32x3_03_1_n_n_1_2_413 : GatherDims S4x4096x3 S4096x32x1 S4x4096x32x3 where
  offsetDims := [0, 3]
  collapsedSliceDims := [1]
  operandBatchingDims := []
  startIndicesBatchingDims := []
  startIndexMap := [1]
  indexVectorDim := 2
  sliceSizes := ![4, 1, 3]
  wf := gather_S4x4096x3_S4096x32x1_S4x4096x32x3_03_1_n_n_1_2_413_wf
def gather_S4x4096x64_S4096x32x1_S4x4096x32x64_03_1_n_n_1_2_4164 : GatherDims S4x4096x64 S4096x32x1 S4x4096x32x64 where
  offsetDims := [0, 3]
  collapsedSliceDims := [1]
  operandBatchingDims := []
  startIndicesBatchingDims := []
  startIndexMap := [1]
  indexVectorDim := 2
  sliceSizes := ![4, 1, 64]
  wf := gather_S4x4096x64_S4096x32x1_S4x4096x32x64_03_1_n_n_1_2_4164_wf
def dot_S8192x6_S6x64_S8192x64_1_0_0_1_n_n : DotDims S8192x6 S6x64 S8192x64 where
  lhsContracting := [1]
  rhsContracting := [0]
  lhsNonContracting := [0]
  rhsNonContracting := [1]
  lhsBatch := []
  rhsBatch := []
  wf := dot_S8192x6_S6x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_v21) S1x8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x256x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x64x4096 : Shape := ⟨3, ![4, 64, 4096]⟩
abbrev S4096x32 : Shape := ⟨2, ![4096, 32]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S4x4096x64 : Shape := ⟨3, ![4, 4096, 64]⟩
abbrev S_ : Shape := ⟨0, ![]⟩
abbrev S4096x32x1 : Shape := ⟨3, ![4096, 32, 1]⟩
abbrev S4x4096x32x3 : Shape := ⟨4, ![4, 4096, 32, 3]⟩
abbrev S4x4096x32x64 : Shape := ⟨4, ![4, 4096, 32, 64]⟩
abbrev S4x4096x1x3 : Shape := ⟨4, ![4, 4096, 1, 3]⟩
abbrev S4x4096x32x6 : Shape := ⟨4, ![4, 4096, 32, 6]⟩
abbrev S4x4096x1x64 : Shape := ⟨4, ![4, 4096, 1, 64]⟩
abbrev S1x1x1x64 : Shape := ⟨4, ![1, 1, 1, 64]⟩
abbrev S4x4096x32x128 : Shape := ⟨4, ![4, 4096, 32, 128]⟩
abbrev S1x1x1x128 : Shape := ⟨4, ![1, 1, 1, 128]⟩
abbrev S4x4096x128 : Shape := ⟨3, ![4, 4096, 128]⟩
abbrev S1x1x64 : Shape := ⟨3, ![1, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4096x32, .i32⟩
  | .hbm, ⟨3, _⟩ => ⟨S64x6, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S4x4096x64, .f32⟩
  | .hbm, ⟨16, _⟩ => ⟨S_, .i32⟩
  | .hbm, ⟨17, _⟩ => ⟨S4096x32, .i32⟩
  | .hbm, ⟨18, _⟩ => ⟨S4096x32, .i1⟩
  | .hbm, ⟨19, _⟩ => ⟨S_, .i32⟩
  | .hbm, ⟨20, _⟩ => ⟨S4096x32, .i32⟩
  | .hbm, ⟨21, _⟩ => ⟨S4096x32, .i32⟩
  | .hbm, ⟨22, _⟩ => ⟨S4096x32, .i32⟩
  | .hbm, ⟨23, _⟩ => ⟨S4096x32x1, .i32⟩
  | .hbm, ⟨24, _⟩ => ⟨S4x4096x32x3, .f32⟩
  | .hbm, ⟨25, _⟩ => ⟨S_, .i32⟩
  | .hbm, ⟨26, _⟩ => ⟨S4096x32, .i32⟩
  | .hbm, ⟨27, _⟩ => ⟨S4096x32, .i1⟩
  | .hbm, ⟨28, _⟩ => ⟨S_, .i32⟩
  | .hbm, ⟨29, _⟩ => ⟨S4096x32, .i32⟩
  | .hbm, ⟨30, _⟩ => ⟨S4096x32, .i32⟩
  | .hbm, ⟨31, _⟩ => ⟨S4096x32, .i32⟩
  | .hbm, ⟨32, _⟩ => ⟨S4096x32x1, .i32⟩
  | .hbm, ⟨33, _⟩ => ⟨S4x4096x32x64, .f32⟩
  | .hbm, ⟨34, _⟩ => ⟨S4x4096x1x3, .f32⟩
  | .hbm, ⟨35, _⟩ => ⟨S4x4096x32x3, .f32⟩
  | .hbm, ⟨36, _⟩ => ⟨S4x4096x32x6, .f32⟩
  | .hbm, ⟨37, _⟩ => ⟨S4x4096x1x64, .f32⟩
  | .hbm, ⟨38, _⟩ => ⟨S4x4096x32x64, .f32⟩
  | .hbm, ⟨39, _⟩ => ⟨S4x4096x32x64, .f32⟩
  | .hbm, ⟨40, _⟩ => ⟨S4x4096x32x64, .f32⟩
  | .hbm, ⟨41, _⟩ => ⟨S1x1x1x64, .f32⟩
  | .hbm, ⟨42, _⟩ => ⟨S4x4096x32x64, .f32⟩
  | .hbm, ⟨43, _⟩ => ⟨S4x4096x32x64, .f32⟩
  | .hbm, ⟨44, _⟩ => ⟨S1x1x1x64, .f32⟩
  | .hbm, ⟨45, _⟩ => ⟨S4x4096x32x64, .f32⟩
  | .hbm, ⟨46, _⟩ => ⟨S4x4096x32x64, .f32⟩
  | .hbm, ⟨47, _⟩ => ⟨S_, .f32⟩
  | .hbm, ⟨48, _⟩ => ⟨S4x4096x32x64, .f32⟩
  | .hbm, ⟨49, _⟩ => ⟨S4x4096x32x64, .f32⟩
  | .hbm, ⟨50, _⟩ => ⟨S4x4096x32x64, .f32⟩
  | .hbm, ⟨51, _⟩ => ⟨S1x1x1x64, .f32⟩
  | .hbm, ⟨52, _⟩ => ⟨S4x4096x32x64, .f32⟩
  | .hbm, ⟨53, _⟩ => ⟨S4x4096x32x64, .f32⟩
  | .hbm, ⟨54, _⟩ => ⟨S1x1x1x64, .f32⟩
  | .hbm, ⟨55, _⟩ => ⟨S4x4096x32x64, .f32⟩
  | .hbm, ⟨56, _⟩ => ⟨S4x4096x32x64, .f32⟩
  | .hbm, ⟨57, _⟩ => ⟨S_, .f32⟩
  | .hbm, ⟨58, _⟩ => ⟨S4x4096x32x64, .f32⟩
  | .hbm, ⟨59, _⟩ => ⟨S4x4096x32x64, .f32⟩
  | .hbm, ⟨60, _⟩ => ⟨S4x4096x32x128, .f32⟩
  | .hbm, ⟨61, _⟩ => ⟨S4x4096x32x128, .f32⟩
  | .hbm, ⟨62, _⟩ => ⟨S1x1x1x128, .f32⟩
  | .hbm, ⟨63, _⟩ => ⟨S4x4096x32x128, .f32⟩
  | .hbm, ⟨64, _⟩ => ⟨S4x4096x32x128, .f32⟩
  | .hbm, ⟨65, _⟩ => ⟨S1x1x1x128, .f32⟩
  | .hbm, ⟨66, _⟩ => ⟨S4x4096x32x128, .f32⟩
  | .hbm, ⟨67, _⟩ => ⟨S4x4096x32x128, .f32⟩
  | .hbm, ⟨68, _⟩ => ⟨S_, .f32⟩
  | .hbm, ⟨69, _⟩ => ⟨S4x4096x32x128, .f32⟩
  | .hbm, ⟨70, _⟩ => ⟨S4x4096x32x128, .f32⟩
  | .hbm, ⟨71, _⟩ => ⟨S_, .f32⟩
  | .hbm, ⟨72, _⟩ => ⟨S4x4096x128, .f32⟩
  | .hbm, ⟨73, _⟩ => ⟨S_, .f32⟩
  | .hbm, ⟨74, _⟩ => ⟨S4x4096x128, .f32⟩
  | .hbm, ⟨75, _⟩ => ⟨S4x4096x128, .f32⟩
  | .hbm, ⟨76, _⟩ => ⟨S4x4096x64, .f32⟩
  | .hbm, ⟨77, _⟩ => ⟨S1x1x64, .f32⟩
  | .hbm, ⟨78, _⟩ => ⟨S4x4096x64, .f32⟩
  | .hbm, ⟨79, _⟩ => ⟨S4x4096x64, .f32⟩
  | .hbm, ⟨80, _⟩ => ⟨S1x1x64, .f32⟩
  | .hbm, ⟨81, _⟩ => ⟨S4x4096x64, .f32⟩
  | .hbm, ⟨82, _⟩ => ⟨S4x4096x64, .f32⟩
  | .hbm, ⟨83, _⟩ => ⟨S_, .f32⟩
  | .hbm, ⟨84, _⟩ => ⟨S4x4096x64, .f32⟩
  | .hbm, ⟨85, _⟩ => ⟨S4x4096x64, .f32⟩
  | .hbm, ⟨86, _⟩ => ⟨S4x64x4096, .f32⟩
  | .hbm, ⟨87, _⟩ => ⟨S4x64x4096, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_v45 : Ref sig .tc := ⟨.hbm, 70, rfl⟩
abbrev main_cst : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call3_cst : Ref sig .tc := ⟨.hbm, 83, rfl⟩
abbrev main_call3_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  transposes_S4x64x4096_S4x4096x64_0_2_1 : S4x64x4096.Transposes [0, 2, 1] S4x4096x64
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4x4096x3_S4x4096x1x3_0_1_3 : S4x4096x3.BroadcastsInDim S4x4096x1x3 (![0, 1, 3] : Fin 3 → Fin S4x4096x1x3.rank)
  bcast_S4x4096x1x3_S4x4096x32x3_0_1_2_3 : S4x4096x1x3.BroadcastsInDim S4x4096x32x3 (![0, 1, 2, 3] : Fin 4 → Fin S4x4096x32x3.rank)
  concatenates_S4x4096x32x3_S4x4096x32x3_S4x4096x32x6_d3 : Shape.Concatenates [S4x4096x32x3, S4x4096x32x3] S4x4096x32x6 3
  bcast_S4x4096x64_S4x4096x1x64_0_1_3 : S4x4096x64.BroadcastsInDim S4x4096x1x64 (![0, 1, 3] : Fin 3 → Fin S4x4096x1x64.rank)
  bcast_S4x4096x1x64_S4x4096x32x64_0_1_2_3 : S4x4096x1x64.BroadcastsInDim S4x4096x32x64 (![0, 1, 2, 3] : Fin 4 → Fin S4x4096x32x64.rank)
  bcast_S64_S1x1x1x64_3 : S64.BroadcastsInDim S1x1x1x64 (![3] : Fin 1 → Fin S1x1x1x64.rank)
  bcast_S1x1x1x64_S4x4096x32x64_0_1_2_3 : S1x1x1x64.BroadcastsInDim S4x4096x32x64 (![0, 1, 2, 3] : Fin 4 → Fin S4x4096x32x64.rank)
  bcast_S_S4x4096x32x64 : S_.BroadcastsInDim S4x4096x32x64 (![] : Fin 0 → Fin S4x4096x32x64.rank)
  concatenates_S4x4096x32x64_S4x4096x32x64_S4x4096x32x128_d3 : Shape.Concatenates [S4x4096x32x64, S4x4096x32x64] S4x4096x32x128 3
  bcast_S128_S1x1x1x128_3 : S128.BroadcastsInDim S1x1x1x128 (![3] : Fin 1 → Fin S1x1x1x128.rank)
  bcast_S1x1x1x128_S4x4096x32x128_0_1_2_3 : S1x1x1x128.BroadcastsInDim S4x4096x32x128 (![0, 1, 2, 3] : Fin 4 → Fin S4x4096x32x128.rank)
  bcast_S_S4x4096x32x128 : S_.BroadcastsInDim S4x4096x32x128 (![] : Fin 0 → Fin S4x4096x32x128.rank)
  reducesTo_S4x4096x32x128_S4x4096x128_d2 : S4x4096x32x128.ReducesTo [2] S4x4096x128
  h_S_ : 0 < S_.numel
  bcast_S_S4x4096x128 : S_.BroadcastsInDim S4x4096x128 (![] : Fin 0 → Fin S4x4096x128.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  transposes_S4x4096x64_S4x64x4096_0_2_1 : S4x4096x64.Transposes [0, 2, 1] S4x64x4096
  gather_S4x4096x3_S4096x32x1_S4x4096x32x3_03_1_n_n_1_2_413_wf : GatherDims.WF S4x4096x3 S4096x32x1 S4x4096x32x3 [0, 3] [1] [] [1] [] 2 ![4, 1, 3]
  gather_S4x4096x64_S4096x32x1_S4x4096x32x64_03_1_n_n_1_2_4164_wf : GatherDims.WF S4x4096x64 S4096x32x1 S4x4096x32x64 [0, 3] [1] [] [1] [] 2 ![4, 1, 64]
  dot_S4x4096x32x6_S64x6_S4x4096x32x64_3_1_012_0_n_n_wf : DotDims.WF S4x4096x32x6 S64x6 S4x4096x32x64 [3] [1] [0, 1, 2] [0] [] []
  dot_S4x4096x32x64_S64x64_S4x4096x32x64_3_1_012_0_n_n_wf : DotDims.WF S4x4096x32x64 S64x64 S4x4096x32x64 [3] [1] [0, 1, 2] [0] [] []
  dot_S4x4096x32x128_S128x128_S4x4096x32x128_3_1_012_0_n_n_wf : DotDims.WF S4x4096x32x128 S128x128 S4x4096x32x128 [3] [1] [0, 1, 2] [0] [] []
  dot_S4x4096x128_S64x128_S4x4096x64_2_1_01_0_n_n_wf : DotDims.WF S4x4096x128 S64x128 S4x4096x64 [2] [1] [0, 1] [0] [] []

variable [Facts₀]

def gather_S4x4096x3_S4096x32x1_S4x4096x32x3_03_1_n_n_1_2_413 : GatherDims S4x4096x3 S4096x32x1 S4x4096x32x3 where
  offsetDims := [0, 3]
  collapsedSliceDims := [1]
  operandBatchingDims := []
  startIndicesBatchingDims := []
  startIndexMap := [1]
  indexVectorDim := 2
  sliceSizes := ![4, 1, 3]
  wf := gather_S4x4096x3_S4096x32x1_S4x4096x32x3_03_1_n_n_1_2_413_wf
def gather_S4x4096x64_S4096x32x1_S4x4096x32x64_03_1_n_n_1_2_4164 : GatherDims S4x4096x64 S4096x32x1 S4x4096x32x64 where
  offsetDims := [0, 3]
  collapsedSliceDims := [1]
  operandBatchingDims := []
  startIndicesBatchingDims := []
  startIndexMap := [1]
  indexVectorDim := 2
  sliceSizes := ![4, 1, 64]
  wf := gather_S4x4096x64_S4096x32x1_S4x4096x32x64_03_1_n_n_1_2_4164_wf
def dot_S4x4096x32x6_S64x6_S4x4096x32x64_3_1_012_0_n_n : DotDims S4x4096x32x6 S64x6 S4x4096x32x64 where
  lhsContracting := [3]
  rhsContracting := [1]
  lhsNonContracting := [0, 1, 2]
  rhsNonContracting := [0]
  lhsBatch := []
  rhsBatch := []
  wf := dot_S4x4096x32x6_S64x6_S4x4096x32x64_3_1_012_0_n_n_wf
def dot_S4x4096x32x64_S64x64_S4x4096x32x64_3_1_012_0_n_n : DotDims S4x4096x32x64 S64x64 S4x4096x32x64 where
  lhsContracting := [3]
  rhsContracting := [1]
  lhsNonContracting := [0, 1, 2]
  rhsNonContracting := [0]
  lhsBatch := []
  rhsBatch := []
  wf := dot_S4x4096x32x64_S64x64_S4x4096x32x64_3_1_012_0_n_n_wf
def dot_S4x4096x32x128_S128x128_S4x4096x32x128_3_1_012_0_n_n : DotDims S4x4096x32x128 S128x128 S4x4096x32x128 where
  lhsContracting := [3]
  rhsContracting := [1]
  lhsNonContracting := [0, 1, 2]
  rhsNonContracting := [0]
  lhsBatch := []
  rhsBatch := []
  wf := dot_S4x4096x32x128_S128x128_S4x4096x32x128_3_1_012_0_n_n_wf
def dot_S4x4096x128_S64x128_S4x4096x64_2_1_01_0_n_n : DotDims S4x4096x128 S64x128 S4x4096x64 where
  lhsContracting := [2]
  rhsContracting := [1]
  lhsNonContracting := [0, 1]
  rhsNonContracting := [0]
  lhsBatch := []
  rhsBatch := []
  wf := dot_S4x4096x128_S64x128_S4x4096x64_2_1_01_0_n_n_wf

class Facts : Prop extends Facts₀ where

variable [Facts]
-- ==== Proof.Spec.lean ====
/-
  The function both programs compute, stated once over plain arrays of extended reals.

  A point `n` of batch `b` has 32 neighbours `k`; the relation tensors hold, per (b, n, k), six coordinates
  (`X`: the centre's three, then the neighbour's three) and 64 feature sums (`Y`: neighbour's plus centre's).
  A SHARED LAYER at an output channel is `max ((∑ j, x j · w j) · s + b) 0`: a dot product with one row of a weight matrix,
  a per-channel scale and shift, and a floor at zero. The network is: a layer on `X` (64 channels) beside a layer on `Y`
  (64 channels), laid side by side to 128 channels; a layer on those (128 channels); the mean over the 32 neighbours; a
  layer on the mean (64 channels); and the input features added back, with the channel axis in front of the point axis.
-/
import Idealize.ShloMosaic.PureOps.Ideal
import Idealize.ShloMosaic.Lib.ValueIdx

noncomputable section

namespace Cert.RelNet

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal
/-- A relation tensor: per batch, point and neighbour, `d` numbers. -/
abbrev Rel (d : ℕ) : Type := (⟨4, ![4, 4096, 32, d]⟩ : Shape).Idx → EReal

/-- One shared layer at one output channel: the dot product of the inputs `x` with the channel's weights `w`, scaled by `s`,
    shifted by `b`, floored at zero (the zero as both programs spell it: the all-zero word). -/
def layer {K : ℕ} (x w : Fin K → EReal) (s b : EReal) : EReal :=
  max ((∑ j : Fin K, x j * w j) * s + b) (Ideal.ofBits .f32 0x00000000#32)

variable (X : Rel 6) (Y : Rel 64)
variable (Wgu : Mat 64 6) (sgu bgu : Row 64) (Wgv : Mat 64 64) (sgv bgv : Row 64)
variable (Wh : Mat 128 128) (sh bh : Row 128) (Wf : Mat 64 128) (sf bf : Row 64)

/-- The coordinate branch at channel `o`: a layer over the six relative coordinates. -/
def gu (b : Fin 4) (n : Fin 4096) (k : Fin 32) (o : Fin 64) : EReal :=
  layer (fun j : Fin 6 => X (ix4 b n k j)) (fun j => Wgu (ix2 o j)) (sgu (ix1 o)) (bgu (ix1 o))

/-- The feature branch at channel `o`: a layer over the 64 feature sums. -/
def gv (b : Fin 4) (n : Fin 4096) (k : Fin 32) (o : Fin 64) : EReal :=
  layer (fun j : Fin 64 => Y (ix4 b n k j)) (fun j => Wgv (ix2 o j)) (sgv (ix1 o)) (bgv (ix1 o))

/-- The two branches side by side: channels 0–63 the coordinate branch, 64–127 the feature branch. -/
def fuse (b : Fin 4) (n : Fin 4096) (k : Fin 32) (j : Fin 128) : EReal :=
  if h : j.val < 64 then gu X Wgu sgu bgu b n k ⟨j.val, h⟩
  else gv Y Wgv sgv bgv b n k ⟨j.val - 64, by have := j.isLt; omega⟩

/-- The hidden layer at channel `d`, per neighbour. -/
def hid (b : Fin 4) (n : Fin 4096) (k : Fin 32) (d : Fin 128) : EReal :=
  layer (fuse X Y Wgu sgu bgu Wgv sgv bgv b n k) (fun j => Wh (ix2 d j)) (sh (ix1 d)) (bh (ix1 d))

/-- The mean of the hidden layer over the 32 neighbours (the divisor as both programs spell it: the word of 32.0). -/
def pooled (b : Fin 4) (n : Fin 4096) (d : Fin 128) : EReal :=
  Ideal.div (∑ k : Fin 32, hid X Y Wgu sgu bgu Wgv sgv bgv Wh sh bh b n k d) (Ideal.ofBits .f32 0x42000000#32)

/-- The output layer at channel `c`, per point. -/
def outp (b : Fin 4) (n : Fin 4096) (c : Fin 64) : EReal :=
  layer (pooled X Y Wgu sgu bgu Wgv sgv bgv Wh sh bh b n) (fun d => Wf (ix2 c d)) (sf (ix1 c)) (bf (ix1 c))

/-- The output layer as an array over (batch, point, channel): what the kernel's region writes. -/
def perPoint : (⟨3, ![4, 4096, 64]⟩ : Shape).Idx → EReal := fun i =>
  outp X Y Wgu sgu bgu Wgv sgv bgv Wh sh bh Wf sf bf (i 0) (i 1) (i 2)

/-- The result over (batch, channel, point): the output layer with the two last axes exchanged, plus the input features. -/
def result (feat : (⟨3, ![4, 64, 4096]⟩ : Shape).Idx → EReal) : (⟨3, ![4, 64, 4096]⟩ : Shape).Idx → EReal := fun i =>
  outp X Y Wgu sgu bgu Wgv sgv bgv Wh sh bh Wf sf bf (i 0) (i 2) (i 1) + feat i

end Cert.RelNet

end
-- ==== Proof.RefSide.lean ====
/-
  The reference, operation by operation, is the specification: each of its stages read at an index is the
  corresponding stage of `Cert.RelNet`, over the relation tensors as the reference's own first operations build them.
-/
import proofs.«179133_j48026324303943_1_alg».proof.Proof.Spec
import proofs.«179133_j48026324303943_1_alg».proof.Proof.Gen.ReferenceIdeal.Read
import Idealize.ShloMosaic.Lib.Pipeline.Value
import Idealize.ShloMosaic.Lib.ValueIdx
import Idealize.ShloMosaic.PureOps.Ideal.Laws

noncomputable section

namespace Cert.RelNet.Ref

open Idealize.ShloMosaic Idealize.ShloMosaic.ValueIdx Cert.ReferenceIdeal Cert.ReferenceIdeal.Gen Cert.ReferenceIdeal.Read Cert.RelNet

variable (x0 : (⟨S4x4096x3, .f32⟩ : BufTy).Contents (Elt Ideal)) (x1 : (⟨S4x64x4096, .f32⟩ : BufTy).Contents (Elt Ideal))
  (x2 : (⟨S4096x32, .i32⟩ : BufTy).Contents (Elt Ideal)) (x3 : (⟨S64x6, .f32⟩ : BufTy).Contents (Elt Ideal))
  (x4 x5 : (⟨S64, .f32⟩ : BufTy).Contents (Elt Ideal)) (x6 : (⟨S64x64, .f32⟩ : BufTy).Contents (Elt Ideal))
  (x7 x8 : (⟨S64, .f32⟩ : BufTy).Contents (Elt Ideal)) (x9 : (⟨S128x128, .f32⟩ : BufTy).Contents (Elt Ideal))
  (x10 x11 : (⟨S128, .f32⟩ : BufTy).Contents (Elt Ideal)) (x12 : (⟨S64x128, .f32⟩ : BufTy).Contents (Elt Ideal))
  (x13 x14 : (⟨S64, .f32⟩ : BufTy).Contents (Elt Ideal))

/-- The reference's coordinate branch (its first layer and floor) is the specification's, entry by entry: the
    contraction runs over the last axis of the relation tensor and the last axis of the weight matrix. -/
theorem gu_ref (i : S4x4096x32x64.Idx) :
    val_main_v28 (F := Ideal) x0 x2 x3 x4 x5 i
      = gu (val_main_v17 (F := Ideal) x0 x2) x3 x4 x5 (i 0) (i 1) (i 2) (i 3) := by
  rw [val_main_v28_apply, val_main_v27_apply, val_main_v24_apply, val_main_v21_apply, val_main_v23_apply, val_main_v22_apply,
    val_main_v26_apply, val_main_v25_apply, val_main_call0_v0_apply, val_main_call0_cst_apply]
  have el : ∀ k, lidx_main_v21 i k = ix4 (i 0) (i 1) (i 2) k := fun k => funext fun a => by
    match a with | ⟨0, _⟩ => rfl | ⟨1, _⟩ => rfl | ⟨2, _⟩ => rfl | ⟨3, _⟩ => rfl
  have er : ∀ k, ridx_main_v21 i k = ix2 (i 3) k := fun k => funext fun a => by
    match a with | ⟨0, _⟩ => rfl | ⟨1, _⟩ => rfl
  have es : idx_main_v22 (idx_main_v23 i) = ix1 (i 3) := funext fun a => by match a with | ⟨0, _⟩ => rfl
  have eb : idx_main_v25 (idx_main_v26 i) = ix1 (i 3) := funext fun a => by match a with | ⟨0, _⟩ => rfl
  simp only [el, er, es, eb, Ideal.maximumf_def, Ideal.addf_def, Ideal.mulf_def, Ideal.ofBits_def, gu, layer]
  rfl

/-- The reference's feature branch is the specification's. -/
theorem gv_ref (i : S4x4096x32x64.Idx) :
    val_main_v36 (F := Ideal) x1 x2 x6 x7 x8 i
      = gv (val_main_v20 (F := Ideal) x1 x2) x6 x7 x8 (i 0) (i 1) (i 2) (i 3) := by
  rw [val_main_v36_apply, val_main_v35_apply, val_main_v32_apply, val_main_v29_apply, val_main_v31_apply, val_main_v30_apply,
    val_main_v34_apply, val_main_v33_apply, val_main_call1_v0_apply, val_main_call1_cst_apply]
  have el : ∀ k, lidx_main_v29 i k = ix4 (i 0) (i 1) (i 2) k := fun k => funext fun a => by
    match a with | ⟨0, _⟩ => rfl | ⟨1, _⟩ => rfl | ⟨2, _⟩ => rfl | ⟨3, _⟩ => rfl
  have er : ∀ k, ridx_main_v29 i k = ix2 (i 3) k := fun k => funext fun a => by
    match a with | ⟨0, _⟩ => rfl | ⟨1, _⟩ => rfl
  have es : idx_main_v30 (idx_main_v31 i) = ix1 (i 3) := funext fun a => by match a with | ⟨0, _⟩ => rfl
  have eb : idx_main_v33 (idx_main_v34 i) = ix1 (i 3) := funext fun a => by match a with | ⟨0, _⟩ => rfl
  simp only [el, er, es, eb, Ideal.maximumf_def, Ideal.addf_def, Ideal.mulf_def, Ideal.ofBits_def, gv, layer]
  rfl

/-- The reference joins the two branches along the channel axis: below 64 the coordinate branch, from 64 on the
    feature branch, 64 channels further back. -/
theorem fuse_ref (i : S4x4096x32x128.Idx) :
    val_main_v37 (F := Ideal) x0 x1 x2 x3 x4 x5 x6 x7 x8 i
      = fuse (val_main_v17 (F := Ideal) x0 x2) (val_main_v20 (F := Ideal) x1 x2) x3 x4 x5 x6 x7 x8 (i 0) (i 1) (i 2) (i 3) := by
  unfold val_main_v37 fuse
  have h128 : (i 3).val < 128 := (i 3).isLt
  by_cases h : (i 3).val < 64
  · have hc := concatenate_pair_apply_left (t := S4x4096x32x128) (s₁ := S4x4096x32x64) (s₂ := S4x4096x32x64) 3
      (val_main_v28 (F := Ideal) x0 x2 x3 x4 x5) (val_main_v36 (F := Ideal) x1 x2 x6 x7 x8)
      concatenates_S4x4096x32x64_S4x4096x32x64_S4x4096x32x128_d3 i rfl
      (ix4 (i 0) (i 1) (i 2) (⟨(i 3).val, h⟩ : Fin 64))
      (fun b => by match b with | ⟨0, _⟩ => rfl | ⟨1, _⟩ => rfl | ⟨2, _⟩ => rfl | ⟨3, _⟩ => rfl)
    rw [dif_pos h, hc]
    exact gu_ref x0 x2 x3 x4 x5 _
  · have hc := concatenate_pair_apply_right (t := S4x4096x32x128) (s₁ := S4x4096x32x64) (s₂ := S4x4096x32x64) 3
      (val_main_v28 (F := Ideal) x0 x2 x3 x4 x5) (val_main_v36 (F := Ideal) x1 x2 x6 x7 x8)
      concatenates_S4x4096x32x64_S4x4096x32x64_S4x4096x32x128_d3 i rfl rfl
      (ix4 (i 0) (i 1) (i 2) (⟨(i 3).val - 64, by omega⟩ : Fin 64))
      (fun b hb => by match b with | ⟨0, _⟩ => rfl | ⟨1, _⟩ => rfl | ⟨2, _⟩ => rfl | ⟨3, _⟩ => exact absurd rfl hb)
      (by show (i 3).val - 64 + 64 = (i 3).val; omega)
    rw [dif_neg h, hc]
    exact gv_ref x1 x2 x6 x7 x8 _

/-- The reference's hidden layer is the specification's. -/
theorem hid_ref (i : S4x4096x32x128.Idx) :
    val_main_v45 (F := Ideal) x0 x1 x2 x3 x4 x5 x6 x7 x8 x9 x10 x11 i
      = hid (val_main_v17 (F := Ideal) x0 x2) (val_main_v20 (F := Ideal) x1 x2) x3 x4 x5 x6 x7 x8 x9 x10 x11
          (i 0) (i 1) (i 2) (i 3) := by
  rw [val_main_v45_apply, val_main_v44_apply, val_main_v41_apply, val_main_v38_apply, val_main_v40_apply, val_main_v39_apply,
    val_main_v43_apply, val_main_v42_apply, val_main_call2_v0_apply, val_main_call2_cst_apply]
  have er : ∀ k, ridx_main_v38 i k = ix2 (i 3) k := fun k => funext fun a => by
    match a with | ⟨0, _⟩ => rfl | ⟨1, _⟩ => rfl
  have es : idx_main_v39 (idx_main_v40 i) = ix1 (i 3) := funext fun a => by match a with | ⟨0, _⟩ => rfl
  have eb : idx_main_v42 (idx_main_v43 i) = ix1 (i 3) := funext fun a => by match a with | ⟨0, _⟩ => rfl
  simp only [fuse_ref, er, es, eb, Ideal.maximumf_def, Ideal.addf_def, Ideal.mulf_def, Ideal.ofBits_def, hid, layer]
  rfl

/-- The reference's mean over the neighbours is the specification's: its sum starts from the zero word, which is 0. -/
theorem pooled_ref (i : S4x4096x128.Idx) :
    val_main_v48 (F := Ideal) x0 x1 x2 x3 x4 x5 x6 x7 x8 x9 x10 x11 i
      = pooled (val_main_v17 (F := Ideal) x0 x2) (val_main_v20 (F := Ideal) x1 x2) x3 x4 x5 x6 x7 x8 x9 x10 x11
          (i 0) (i 1) (i 2) := by
  rw [val_main_v48_apply, val_main_v46_apply, val_main_v47_apply, val_main_cst_3_apply, val_main_cst_apply]
  simp only [hid_ref, Ideal.hostDivf_def, Ideal.ofBits_def, Ideal.ofBits_zero_f32, zero_add, pooled]
  rfl

/-- The reference's output layer is the specification's. -/
theorem outp_ref (i : S4x4096x64.Idx) :
    val_main_v56 (F := Ideal) x0 x1 x2 x3 x4 x5 x6 x7 x8 x9 x10 x11 x12 x13 x14 i
      = outp (val_main_v17 (F := Ideal) x0 x2) (val_main_v20 (F := Ideal) x1 x2) x3 x4 x5 x6 x7 x8 x9 x10 x11 x12 x13 x14
          (i 0) (i 1) (i 2) := by
  rw [val_main_v56_apply, val_main_v55_apply, val_main_v52_apply, val_main_v49_apply, val_main_v51_apply, val_main_v50_apply,
    val_main_v54_apply, val_main_v53_apply, val_main_call3_v0_apply, val_main_call3_cst_apply]
  have er : ∀ k, ridx_main_v49 i k = ix2 (i 2) k := fun k => funext fun a => by
    match a with | ⟨0, _⟩ => rfl | ⟨1, _⟩ => rfl
  have es : idx_main_v50 (idx_main_v51 i) = ix1 (i 2) := funext fun a => by match a with | ⟨0, _⟩ => rfl
  have eb : idx_main_v53 (idx_main_v54 i) = ix1 (i 2) := funext fun a => by match a with | ⟨0, _⟩ => rfl
  simp only [pooled_ref, er, es, eb, Ideal.maximumf_def, Ideal.addf_def, Ideal.mulf_def, Ideal.ofBits_def, outp, layer]
  rfl

/-- The reference's result is the specification's: the two last axes exchanged, the features added. -/
theorem result_ref :
    val_main_v58 (F := Ideal) x0 x1 x2 x3 x4 x5 x6 x7 x8 x9 x10 x11 x12 x13 x14
      = result (val_main_v17 (F := Ideal) x0 x2) (val_main_v20 (F := Ideal) x1 x2) x3 x4 x5 x6 x7 x8 x9 x10 x11 x12 x13 x14 x1 := by
  funext i
  rw [val_main_v58_apply, val_main_v57_apply, outp_ref]
  simp only [Ideal.addf_def, result]
  rfl

end Cert.RelNet.Ref

end
-- ==== Proof.KernelArrays.lean ====
/-
  The arrays the kernel's region finds, as the program's first lines build them from the launch contents — the two
  relation tensors with their (point, neighbour) axes merged, the four weight matrices transposed — and the windows'
  index maps decided over the grid.
-/
import proofs.«179133_j48026324303943_1_alg».proof.Proof.Spec
import proofs.«179133_j48026324303943_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.RelValue

open Idealize.ShloMosaic Idealize.ShloMosaic.TcCoe Idealize.ShloMosaic.ValueIdx Idealize.SL.Sem Idealize.ShloMosaic.StableHlo
open Cert.KernelIdeal Cert.KernelIdeal.Gen Cert.RelNet
open Idealize.ShloMosaic.Pipeline (Dat Cfg Window)

set_option maxHeartbeats 1000000

variable (m : (ℓ : Loc nD τ sig) → Buf (Elt Ideal) ℓ) (ρ : Dev nD → PrngReg)

/-! ## The arrays the region finds: what the program's first lines compute -/

/-- The neighbour table as the gathers use it: a negative entry counts from the end (4096 is added). -/
def nbr (x2 : (⟨S4096x32, .i32⟩ : BufTy).Contents (Elt Ideal)) : (⟨S4096x32x1, .i32⟩ : BufTy).Contents (Elt Ideal) :=
  broadcastInDim S4096x32x1 ![0, 1] bcast_S4096x32_S4096x32x1_0_1
    (select (cmpi .slt x2 (broadcastInDim S4096x32 ![] bcast_S_S4096x32 (constantI S_ 32 0#32)))
      (addi x2 (broadcastInDim S4096x32 ![] bcast_S_S4096x32 (constantI S_ 32 4096#32))) x2)

/-- The coordinate relation tensor: per (batch, point, neighbour) the point's own three coordinates, then the neighbour's. -/
def relX (x0 : (⟨S4x4096x3, .f32⟩ : BufTy).Contents (Elt Ideal)) (x2 : (⟨S4096x32, .i32⟩ : BufTy).Contents (Elt Ideal)) :
    (⟨S4x4096x32x6, .f32⟩ : BufTy).Contents (Elt Ideal) :=
  concatenate S4x4096x32x6 3
    [⟨S4x4096x32x3, broadcastInDim S4x4096x32x3 ![0, 1, 2, 3] bcast_S4x4096x1x3_S4x4096x32x3_0_1_2_3
        (broadcastInDim S4x4096x1x3 ![0, 1, 3] bcast_S4x4096x3_S4x4096x1x3_0_1_3 x0)⟩,
     ⟨S4x4096x32x3, Host.gather gather_S4x4096x3_S4096x32x1_S4x4096x32x3_03_1_n_n_1_2_413 x0 (nbr x2)⟩]
    concatenates_S4x4096x32x3_S4x4096x32x3_S4x4096x32x6_d3

/-- The features with the point axis in front of the channel axis. -/
def featT (x1 : (⟨S4x64x4096, .f32⟩ : BufTy).Contents (Elt Ideal)) : (⟨S4x4096x64, .f32⟩ : BufTy).Contents (Elt Ideal) :=
  transpose S4x4096x64 [0, 2, 1] x1 transposes_S4x64x4096_S4x4096x64_0_2_1

/-- The feature relation tensor: per (batch, point, neighbour) the neighbour's features plus the point's own. -/
def relY (x1 : (⟨S4x64x4096, .f32⟩ : BufTy).Contents (Elt Ideal)) (x2 : (⟨S4096x32, .i32⟩ : BufTy).Contents (Elt Ideal)) :
    FVec Ideal S4x4096x32x64 .f32 :=
  addf (F := Ideal) (Host.gather gather_S4x4096x64_S4096x32x1_S4x4096x32x64_03_1_n_n_1_2_4164 (featT x1) (nbr x2))
    (broadcastInDim S4x4096x32x64 ![0, 1, 2, 3] bcast_S4x4096x1x64_S4x4096x32x64_0_1_2_3
      (broadcastInDim S4x4096x1x64 ![0, 1, 3] bcast_S4x4096x64_S4x4096x1x64_0_1_3 (featT x1)))

/-- Window 0's array: the coordinate relation tensor with its (point, neighbour) axes merged into one of 131072 rows. -/
theorem V_v21 (c : Dev nD) : V m c main_v21
    = shapeCast S4x131072x6 (relX (m ((c : Thread nD τ).loc main_arg0)) (m ((c : Thread nD τ).loc main_arg2))) shapeCasts_S4x4096x32x6_S4x131072x6 := by
  show StableHlo.after hostOps0 (fun b => m (c, b)) (Proc.devRef .tc main_v21) = _
  unfold relX nbr
  after_results_simp <;> rfl

/-- Window 1's array: the feature relation tensor, its (point, neighbour) axes merged likewise. -/
theorem V_v22 (c : Dev nD) : V m c main_v22
    = shapeCast S4x131072x64 (relY (m ((c : Thread nD τ).loc main_arg1)) (m ((c : Thread nD τ).loc main_arg2))) shapeCasts_S4x4096x32x64_S4x131072x64 := by
  show StableHlo.after hostOps0 (fun b => m (c, b)) (Proc.devRef .tc main_v22) = _
  unfold relY featT nbr
  after_results_simp <;> rfl

/-- The four weight matrices reach the region transposed. -/
theorem V_v23 (c : Dev nD) : V m c main_v23 = transpose S6x64 [1, 0] (m ((c : Thread nD τ).loc main_arg3)) transposes_S64x6_S6x64_1_0 := by
  show StableHlo.after hostOps0 (fun b => m (c, b)) (Proc.devRef .tc main_v23) = _
  after_results_simp <;> rfl
theorem V_v24 (c : Dev nD) : V m c main_v24 = transpose S64x64 [1, 0] (m ((c : Thread nD τ).loc main_arg6)) transposes_S64x64_S64x64_1_0 := by
  show StableHlo.after hostOps0 (fun b => m (c, b)) (Proc.devRef .tc main_v24) = _
  after_results_simp <;> rfl
theorem V_v25 (c : Dev nD) : V m c main_v25 = transpose S128x128 [1, 0] (m ((c : Thread nD τ).loc main_arg9)) transposes_S128x128_S128x128_1_0 := by
  show StableHlo.after hostOps0 (fun b => m (c, b)) (Proc.devRef .tc main_v25) = _
  after_results_simp <;> rfl
theorem V_v26 (c : Dev nD) : V m c main_v26 = transpose S128x64 [1, 0] (m ((c : Thread nD τ).loc main_arg12)) transposes_S64x128_S128x64_1_0 := by
  show StableHlo.after hostOps0 (fun b => m (c, b)) (Proc.devRef .tc main_v26) = _
  after_results_simp <;> rfl

/-! ## The windows' index maps over the grid -/

/-- Decided once over the 64 grid points: the two relation-tensor windows move with the output window (batch on the
    first axis, tile on the second, nothing on the third), whose block indices stay below 4 and 16; every other window
    stays at its array's one block. -/
theorem idx_facts : ∀ t : Fin cfg0.N,
    (win0_0.index t (0 : Fin 3) = win0_14.index t (0 : Fin 3) ∧ win0_0.index t (1 : Fin 3) = win0_14.index t (1 : Fin 3)
      ∧ win0_0.index t (2 : Fin 3) = 0)
    ∧ (win0_1.index t (0 : Fin 3) = win0_14.index t (0 : Fin 3) ∧ win0_1.index t (1 : Fin 3) = win0_14.index t (1 : Fin 3)
      ∧ win0_1.index t (2 : Fin 3) = 0)
    ∧ (win0_14.index t (0 : Fin 3) ≤ 3 ∧ win0_14.index t (1 : Fin 3) ≤ 15 ∧ win0_14.index t (2 : Fin 3) = 0)
    ∧ (win0_2.index t (0 : Fin 2) = 0 ∧ win0_2.index t (1 : Fin 2) = 0 ∧ win0_5.index t (0 : Fin 2) = 0 ∧ win0_5.index t (1 : Fin 2) = 0
      ∧ win0_8.index t (0 : Fin 2) = 0 ∧ win0_8.index t (1 : Fin 2) = 0 ∧ win0_11.index t (0 : Fin 2) = 0 ∧ win0_11.index t (1 : Fin 2) = 0)
    ∧ (win0_3.index t (0 : Fin 1) = 0 ∧ win0_4.index t (0 : Fin 1) = 0 ∧ win0_6.index t (0 : Fin 1) = 0 ∧ win0_7.index t (0 : Fin 1) = 0
      ∧ win0_9.index t (0 : Fin 1) = 0 ∧ win0_10.index t (0 : Fin 1) = 0 ∧ win0_12.index t (0 : Fin 1) = 0 ∧ win0_13.index t (0 : Fin 1) = 0) :=
  (by decide +kernel : ∀ t : Fin grid0.N, _)

/-- Every (batch, tile) pair is some grid point's output block. -/
theorem idx_onto : ∀ (q0 : Fin 4) (q1 : Fin 16), ∃ t : Fin cfg0.N, win0_14.index t = ![q0.val, q1.val, 0] :=
  (by decide +kernel : ∀ (q0 : Fin 4) (q1 : Fin 16), ∃ t : Fin grid0.N, win0_14.index t = ![q0.val, q1.val, 0])

end Cert.KernelIdeal.RelValue

end
-- ==== Proof.LibPlainDot.lean ====
/-
  A `tpu.matmul` at the plain dimension numbers — an M×K left operand times a K×N right operand, the left's last axis
  contracted with the right's first — into the zero accumulator, read at an entry (p, q) of the extended reals:
  the sum over k of lhs (p, k) · rhs (k, q).
-/
import Idealize.ShloMosaic.PureOps.Ideal.Laws
import Idealize.ShloMosaic.Lib.ValueIdx

noncomputable section

namespace Cert.LibPlainDot

open Idealize.ShloMosaic Idealize.ShloMosaic.ValueIdx

variable {M K N : ℕ}

/-- The left operand's row coordinate at an output entry is the entry's row. -/
theorem lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right operand's row coordinate is the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right operand's column coordinate at an output entry is the entry's column. -/
theorem rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The plain matrix product into the zero accumulator, at an entry: the sum over the contracted axis. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Cert.LibPlainDot

end
-- ==== Proof.KernelBody.lean ====
/-
  The kernel's body, read entry by entry: what it stores into the output block is, at row `r` and channel `c` of the
  block, the output layer over the mean of the hidden layer over rows `32 r … 32 r + 31` of the two input blocks.
-/
import proofs.«179133_j48026324303943_1_alg».proof.Proof.Spec
import proofs.«179133_j48026324303943_1_alg».proof.Proof.LibPlainDot
import proofs.«179133_j48026324303943_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.RelNet.Body

open Idealize.ShloMosaic Idealize.ShloMosaic.ValueIdx Cert.KernelIdeal Cert.KernelIdeal.Gen Cert.RelNet

/-- A product with a K×N weight block into the zero accumulator, scaled and shifted per column by two rows broadcast over
    the M rows, floored at the zero word: at entry (p, q), the shared layer of row `p` against column `q`. -/
theorem layer_of_matmul {M K N : ℕ} {φ₁ φ₂ : FTy} (lhs : FVec Ideal ⟨2, ![M, K]⟩ φ₁) (rhs : FVec Ideal ⟨2, ![K, N]⟩ φ₂)
    (s b : FVec Ideal ⟨1, ![N]⟩ .f32) (hs : (⟨1, ![N]⟩ : Shape).ShapeCasts ⟨2, ![1, N]⟩)
    (hb : (⟨2, ![1, N]⟩ : Shape).Broadcasts ⟨2, ![M, N]⟩) (p : Fin M) (q : Fin N) :
    maximumf (addf (mulf (matmul (DotDims.plain M K N) none lhs rhs (constant ⟨2, ![M, N]⟩ .f32 0x00000000#32))
          (broadcastTo ⟨2, ![M, N]⟩ (shapeCast ⟨2, ![1, N]⟩ s hs) hb))
        (broadcastTo ⟨2, ![M, N]⟩ (shapeCast ⟨2, ![1, N]⟩ b hs) hb))
      (broadcast ⟨2, ![M, N]⟩ (Scalar.ofBits (F := Ideal) .f32 0x00000000#32)) (ix2 p q)
    = layer (fun k => lhs (ix2 p k)) (fun k => rhs (ix2 k q)) (s (ix1 q)) (b (ix1 q)) := by
  rw [maximumf_apply, addf_apply, mulf_apply, broadcast_apply, broadcastTo_1b_ab_apply, broadcastTo_1b_ab_apply,
    shapeCast_a_1a_apply, shapeCast_a_1a_apply]
  simp only [matmul]
  rw [Cert.LibPlainDot.matmul_zero_apply]
  rfl

variable (v0 : Vec Ideal S1x8192x6 .f32) (v3 : Vec Ideal S6x64 .f32) (v7 v11 : Vec Ideal S64 .f32)
  (v17 : Vec Ideal S1x8192x64 .f32) (v20 : Vec Ideal S64x64 .f32) (v24 v28 : Vec Ideal S64 .f32)

/-- The fused activations, channels 0–63: the coordinate branch of row `r` of the first input block. -/
theorem pay2_left (r : Fin 8192) (o : Fin 64) :
    k0_pay2 (F := Ideal) v0 v3 v7 v11 v17 v20 v24 v28 (ix2 r (⟨o.val, by omega⟩ : Fin 128))
      = layer (fun q : Fin 6 => v0 (ix3 (0 : Fin 1) r q)) (fun q => v3 (ix2 q o)) (v7 (ix1 o)) (v11 (ix1 o)) := by
  unfold k0_pay2
  rw [truncf_apply, concatenate_pair_apply_left (t := S8192x128) (s₁ := S8192x64) (s₂ := S8192x64) 1 _ _
    concatenates_S8192x64_S8192x64_S8192x128_d1 _ rfl (ix2 r o)
    (fun b => by match b with | ⟨0, _⟩ => rfl | ⟨1, _⟩ => rfl)]
  refine (layer_of_matmul (M := 8192) (K := 6) (N := 64) _ _ v7 v11 shapeCasts_S64_S1x64 broadcasts_S1x64_S8192x64 r o).trans ?_
  simp only [truncf_apply, shapeCast_1ab_ab_apply, shapeCast_self]

/-- The fused activations, channels 64–127: the feature branch of row `r` of the second input block. -/
theorem pay2_right (r : Fin 8192) (o : Fin 64) :
    k0_pay2 (F := Ideal) v0 v3 v7 v11 v17 v20 v24 v28 (ix2 r (⟨o.val + 64, by omega⟩ : Fin 128))
      = layer (fun q : Fin 64 => v17 (ix3 (0 : Fin 1) r q)) (fun q => v20 (ix2 q o)) (v24 (ix1 o)) (v28 (ix1 o)) := by
  unfold k0_pay2
  rw [truncf_apply, concatenate_pair_apply_right (t := S8192x128) (s₁ := S8192x64) (s₂ := S8192x64) 1 _ _
    concatenates_S8192x64_S8192x64_S8192x128_d1 _ rfl rfl (ix2 r o)
    (fun b hb => by match b with | ⟨0, _⟩ => rfl | ⟨1, _⟩ => exact absurd rfl hb) rfl]
  refine (layer_of_matmul (M := 8192) (K := 64) (N := 64) _ _ v24 v28 shapeCasts_S64_S1x64 broadcasts_S1x64_S8192x64 r o).trans ?_
  simp only [truncf_apply, shapeCast_1ab_ab_apply, shapeCast_self]

/-- Rows of a [8192, 128] array regrouped as [256, 32, 128] and summed over the middle axis: entry (r, d) is the sum of
    rows `32 r … 32 r + 31` at column `d`. -/
theorem sum_grouped_rows (w : FVec Ideal S8192x128 .f32) (hc : S8192x128.ShapeCasts S256x32x128)
    (hr : S256x32x128.Reduces [1] S256x128) (hφ : FKind.Formats .f32) (hacc : (0x00000000#32 : BitVec 32) = FKind.add.neutral .f32 hφ)
    (r : Fin 256) (d : Fin 128) :
    multiReduction .add [1] S256x128 (shapeCast S256x32x128 w hc) 0x00000000#32 hr hφ hacc (ix2 r d)
      = ∑ k : Fin 32, w (ix2 (⟨r.val * 32 + k.val, by omega⟩ : Fin 8192) d) := by
  refine (Ideal.multiReduction_add_single _ _ hr hφ hacc _).trans ?_
  show (∑ k : Fin 32, shapeCast S256x32x128 w hc (hr.lift (ix2 r d) k)) = _
  refine Finset.sum_congr rfl fun k _ => ?_
  have hl : hr.lift (ix2 r d) k = (ix3 r k d : S256x32x128.Idx) := funext fun c => Fin.ext (by
    match c with | ⟨0, _⟩ => rfl | ⟨1, _⟩ => rfl | ⟨2, _⟩ => rfl)
  rw [hl]
  refine shapeCast_apply w hc _ _ ?_
  show ((⟨2, ![8192, 128]⟩ : Shape).rowMajor _).val = ((⟨3, ![256, 32, 128]⟩ : Shape).rowMajor _).val
  rw [Shape.rowMajor_val_three, Shape.rowMajor_val_two]
  rfl

variable (v35 : FVec Ideal S8192x128 .bf16) (v37 : FVec Ideal S128x128 .f32) (v40 v44 : Vec Ideal S128 .f32)
  (v55 : Vec Ideal S128x64 .f32) (v59 v63 : Vec Ideal S64 .f32)

/-- The stored block at row `r`, channel `c`: the output layer over the mean, across the 32 rows of group `r`, of the
    hidden layer of the fused activations `v35`. -/
theorem pay1_apply (r : Fin 256) (c : Fin 64) :
    k0_pay1 (F := Ideal) v35 v37 v40 v44 v55 v59 v63 (ix3 (0 : Fin 1) r c)
      = layer (fun d : Fin 128 => Ideal.div
            (∑ k : Fin 32, layer (fun j : Fin 128 => v35 (ix2 (⟨r.val * 32 + k.val, by omega⟩ : Fin 8192) j))
              (fun j => v37 (ix2 j d)) (v40 (ix1 d)) (v44 (ix1 d)))
            (Ideal.ofBits .f32 0x42000000#32))
          (fun d => v55 (ix2 d c)) (v59 (ix1 c)) (v63 (ix1 c)) := by
  unfold k0_pay1
  rw [shapeCast_ab_1ab_apply]
  refine (layer_of_matmul (M := 256) (K := 128) (N := 64) _ _ v59 v63 shapeCasts_S64_S1x64 broadcasts_S1x64_S256x64 r c).trans ?_
  simp only [truncf_apply, shapeCast_self, divf_apply, broadcast_apply]
  refine congrArg (fun f => layer f (fun k => v55 (ix2 k c)) (v59 (ix1 c)) (v63 (ix1 c))) (funext fun d => ?_)
  refine congrArg (fun x => Ideal.div x (Ideal.ofBits .f32 0x42000000#32)) ?_
  refine (sum_grouped_rows _ _ _ _ _ r d).trans ?_
  refine Finset.sum_congr rfl fun k _ => ?_
  refine (layer_of_matmul (M := 8192) (K := 128) (N := 128) _ _ v40 v44 shapeCasts_S128_S1x128 broadcasts_S1x128_S8192x128 _ d).trans ?_
  simp only [truncf_apply]

/-! ## The body at a block of the relation tensors -/

section Block

variable (X : Rel 6) (Y : Rel 64)
variable (Wgu : Mat 64 6) (Wgv : Mat 64 64) (Wh : Mat 128 128) (Wf : Mat 64 128)

/-- Below channel 64 the fused activations are the coordinate branch. -/
theorem fuse_left (sgu bgu sgv bgv : Row 64) (b : Fin 4) (n : Fin 4096) (k : Fin 32) (o : Fin 64) :
    fuse X Y Wgu sgu bgu Wgv sgv bgv b n k (⟨o.val, by omega⟩ : Fin 128) = gu X Wgu sgu bgu b n k o := by
  unfold fuse
  rw [dif_pos o.isLt]

/-- From channel 64 on they are the feature branch, 64 channels back. -/
theorem fuse_right (sgu bgu sgv bgv : Row 64) (b : Fin 4) (n : Fin 4096) (k : Fin 32) (o : Fin 64) :
    fuse X Y Wgu sgu bgu Wgv sgv bgv b n k (⟨o.val + 64, by omega⟩ : Fin 128) = gv Y Wgv sgv bgv b n k o := by
  unfold fuse
  rw [dif_neg (show ¬ (o.val + 64 < 64) by omega)]
  have e : (⟨o.val + 64 - 64, by omega⟩ : Fin 64) = o := Fin.ext (by show o.val + 64 - 64 = o.val; omega)
  rw [e]

/-- The weight block the body casts to its own shape is the block. -/
theorem pay3_eq (v36 : Vec Ideal S128x128 .f32) : k0_pay3 (F := Ideal) v36 = v36 := by
  unfold k0_pay3
  exact shapeCast_self _ _

variable (x0 : Vec Ideal S1x8192x6 .f32) (x1 : Vec Ideal S1x8192x64 .f32) (x2 : Vec Ideal S6x64 .f32) (x3 x4 : Vec Ideal S64 .f32)
  (x5 : Vec Ideal S64x64 .f32) (x6 x7 : Vec Ideal S64 .f32) (x8 : Vec Ideal S128x128 .f32) (x9 x10 : Vec Ideal S128 .f32)
  (x11 : Vec Ideal S128x64 .f32) (x12 x13 : Vec Ideal S64 .f32)
variable (b : Fin 4) (nt : Fin 16)
-- the two input blocks hold rows `8192 nt … 8192 nt + 8191` of batch `b` of the relation tensors, a row being a
-- (point, neighbour) pair, 32 neighbours to a point; the weight blocks hold the weight matrices transposed
variable (hX : ∀ (r : Fin 8192) (q : Fin 6),
    x0 (ix3 (0 : Fin 1) r q) = X (ix4 b (⟨nt.val * 256 + r.val / 32, by omega⟩ : Fin 4096) (⟨r.val % 32, by omega⟩ : Fin 32) q))
variable (hY : ∀ (r : Fin 8192) (q : Fin 64),
    x1 (ix3 (0 : Fin 1) r q) = Y (ix4 b (⟨nt.val * 256 + r.val / 32, by omega⟩ : Fin 4096) (⟨r.val % 32, by omega⟩ : Fin 32) q))
variable (hgu : ∀ (q : Fin 6) (o : Fin 64), x2 (ix2 q o) = Wgu (ix2 o q))
variable (hgv : ∀ (q : Fin 64) (o : Fin 64), x5 (ix2 q o) = Wgv (ix2 o q))
variable (hh : ∀ (q : Fin 128) (o : Fin 128), x8 (ix2 q o) = Wh (ix2 o q))
variable (hf : ∀ (q : Fin 128) (o : Fin 64), x11 (ix2 q o) = Wf (ix2 o q))

include hX hY hgu hgv in
/-- Row `r'` of the fused activations of the block is the specification's at point `256 nt + r' / 32`, neighbour `r' % 32`. -/
theorem fuse_block (r' : Fin 8192) (j : Fin 128) :
    k0_pay2 (F := Ideal) x0 x2 x3 x4 x1 x5 x6 x7 (ix2 r' j)
      = fuse X Y Wgu x3 x4 Wgv x6 x7 b (⟨nt.val * 256 + r'.val / 32, by omega⟩ : Fin 4096) (⟨r'.val % 32, by omega⟩ : Fin 32) j := by
  rcases Nat.lt_or_ge j.val 64 with h | h
  · obtain ⟨o, rfl⟩ : ∃ o : Fin 64, j = ⟨o.val, Nat.lt_trans o.isLt (by decide)⟩ := ⟨⟨j.val, h⟩, rfl⟩
    rw [pay2_left, fuse_left]
    unfold gu
    simp only [hX, hgu]
  · obtain ⟨o, rfl⟩ : ∃ o : Fin 64, j = ⟨o.val + 64, Nat.add_lt_add_right o.isLt 64⟩ :=
      ⟨⟨j.val - 64, by omega⟩, Fin.ext (by show j.val = j.val - 64 + 64; omega)⟩
    rw [pay2_right, fuse_right]
    unfold gv
    simp only [hY, hgv]

include hX hY hgu hgv hh hf in
/-- What the body stores at row `r`, channel `ch` of the output block is the specification's output layer at point
    `256 nt + r`: the 32 rows of group `r` are that point's 32 neighbours. -/
theorem block_value (r : Fin 256) (ch : Fin 64) :
    k0_pay1 (F := Ideal) (k0_pay2 x0 x2 x3 x4 x1 x5 x6 x7) (k0_pay3 x8) x9 x10 x11 x12 x13 (ix3 (0 : Fin 1) r ch)
      = outp X Y Wgu x3 x4 Wgv x6 x7 Wh x9 x10 Wf x12 x13 b (⟨nt.val * 256 + r.val, by omega⟩ : Fin 4096) ch := by
  have hfu : ∀ (k : Fin 32) (j : Fin 128),
      k0_pay2 (F := Ideal) x0 x2 x3 x4 x1 x5 x6 x7 (ix2 (⟨r.val * 32 + k.val, by omega⟩ : Fin 8192) j)
        = fuse X Y Wgu x3 x4 Wgv x6 x7 b (⟨nt.val * 256 + r.val, by omega⟩ : Fin 4096) k j := by
    intro k j
    rw [fuse_block X Y Wgu Wgv x0 x1 x2 x3 x4 x5 x6 x7 b nt hX hY hgu hgv]
    have e1 : (⟨nt.val * 256 + (r.val * 32 + k.val) / 32, by omega⟩ : Fin 4096) = ⟨nt.val * 256 + r.val, by omega⟩ :=
      Fin.ext (by show nt.val * 256 + (r.val * 32 + k.val) / 32 = nt.val * 256 + r.val; omega)
    have e2 : (⟨(r.val * 32 + k.val) % 32, by omega⟩ : Fin 32) = k :=
      Fin.ext (by show (r.val * 32 + k.val) % 32 = k.val; omega)
    rw [e1, e2]
  rw [pay1_apply]
  unfold outp pooled hid
  simp only [hfu, pay3_eq, hh, hf]

end Block

end Cert.RelNet.Body

end
-- ==== Proof.KernelBlocks.lean ====
/-
  Each window's block at a grid point, as a part of the array the region finds: the two relation-tensor windows hold
  8192 consecutive (point, neighbour) rows of one batch — 256 points with their 32 neighbours each —, every other window
  its whole array.
-/
import proofs.«179133_j48026324303943_1_alg».proof.Proof.KernelArrays
import proofs.«179133_j48026324303943_1_alg».proof.Proof.KernelBody

set_option maxRecDepth 16384

noncomputable section

namespace Cert.KernelIdeal.RelValue

open Idealize.ShloMosaic Idealize.ShloMosaic.TcCoe Idealize.ShloMosaic.ValueIdx Idealize.SL.Sem Idealize.ShloMosaic.StableHlo
open Cert.KernelIdeal Cert.KernelIdeal.Gen Cert.RelNet
open Idealize.ShloMosaic.Pipeline (Dat Cfg Window)

variable (m : (ℓ : Loc nD τ sig) → Buf (Elt Ideal) ℓ) (ρ : Dev nD → PrngReg)

/-! ## The launch contents, and each window's block at a point, at their literal types -/

abbrev A0 (c : Dev nD) : (⟨S4x4096x3, .f32⟩ : BufTy).Contents (Elt Ideal) := m ((c : Thread nD τ).loc main_arg0)
abbrev A1 (c : Dev nD) : (⟨S4x64x4096, .f32⟩ : BufTy).Contents (Elt Ideal) := m ((c : Thread nD τ).loc main_arg1)
abbrev A2 (c : Dev nD) : (⟨S4096x32, .i32⟩ : BufTy).Contents (Elt Ideal) := m ((c : Thread nD τ).loc main_arg2)
abbrev A3 (c : Dev nD) : (⟨S64x6, .f32⟩ : BufTy).Contents (Elt Ideal) := m ((c : Thread nD τ).loc main_arg3)
abbrev A4 (c : Dev nD) : (⟨S64, .f32⟩ : BufTy).Contents (Elt Ideal) := m ((c : Thread nD τ).loc main_arg4)
abbrev A5 (c : Dev nD) : (⟨S64, .f32⟩ : BufTy).Contents (Elt Ideal) := m ((c : Thread nD τ).loc main_arg5)
abbrev A6 (c : Dev nD) : (⟨S64x64, .f32⟩ : BufTy).Contents (Elt Ideal) := m ((c : Thread nD τ).loc main_arg6)
abbrev A7 (c : Dev nD) : (⟨S64, .f32⟩ : BufTy).Contents (Elt Ideal) := m ((c : Thread nD τ).loc main_arg7)
abbrev A8 (c : Dev nD) : (⟨S64, .f32⟩ : BufTy).Contents (Elt Ideal) := m ((c : Thread nD τ).loc main_arg8)
abbrev A9 (c : Dev nD) : (⟨S128x128, .f32⟩ : BufTy).Contents (Elt Ideal) := m ((c : Thread nD τ).loc main_arg9)
abbrev A10 (c : Dev nD) : (⟨S128, .f32⟩ : BufTy).Contents (Elt Ideal) := m ((c : Thread nD τ).loc main_arg10)
abbrev A11 (c : Dev nD) : (⟨S128, .f32⟩ : BufTy).Contents (Elt Ideal) := m ((c : Thread nD τ).loc main_arg11)
abbrev A12 (c : Dev nD) : (⟨S64x128, .f32⟩ : BufTy).Contents (Elt Ideal) := m ((c : Thread nD τ).loc main_arg12)
abbrev A13 (c : Dev nD) : (⟨S64, .f32⟩ : BufTy).Contents (Elt Ideal) := m ((c : Thread nD τ).loc main_arg13)
abbrev A14 (c : Dev nD) : (⟨S64, .f32⟩ : BufTy).Contents (Elt Ideal) := m ((c : Thread nD τ).loc main_arg14)

abbrev B0 (c : Dev nD) (t : Fin cfg0.N) : Vec Ideal S1x8192x6 .f32 := iblk m c 0 t
abbrev B1 (c : Dev nD) (t : Fin cfg0.N) : Vec Ideal S1x8192x64 .f32 := iblk m c 1 t
abbrev B2 (c : Dev nD) (t : Fin cfg0.N) : Vec Ideal S6x64 .f32 := iblk m c 2 t
abbrev B3 (c : Dev nD) (t : Fin cfg0.N) : Vec Ideal S64 .f32 := iblk m c 3 t
abbrev B4 (c : Dev nD) (t : Fin cfg0.N) : Vec Ideal S64 .f32 := iblk m c 4 t
abbrev B5 (c : Dev nD) (t : Fin cfg0.N) : Vec Ideal S64x64 .f32 := iblk m c 5 t
abbrev B6 (c : Dev nD) (t : Fin cfg0.N) : Vec Ideal S64 .f32 := iblk m c 6 t
abbrev B7 (c : Dev nD) (t : Fin cfg0.N) : Vec Ideal S64 .f32 := iblk m c 7 t
abbrev B8 (c : Dev nD) (t : Fin cfg0.N) : Vec Ideal S128x128 .f32 := iblk m c 8 t
abbrev B9 (c : Dev nD) (t : Fin cfg0.N) : Vec Ideal S128 .f32 := iblk m c 9 t
abbrev B10 (c : Dev nD) (t : Fin cfg0.N) : Vec Ideal S128 .f32 := iblk m c 10 t
abbrev B11 (c : Dev nD) (t : Fin cfg0.N) : Vec Ideal S128x64 .f32 := iblk m c 11 t
abbrev B12 (c : Dev nD) (t : Fin cfg0.N) : Vec Ideal S64 .f32 := iblk m c 12 t
abbrev B13 (c : Dev nD) (t : Fin cfg0.N) : Vec Ideal S64 .f32 := iblk m c 13 t

/-- The batch a grid point works on. -/
def batchOf (t : Fin cfg0.N) : Fin 4 := ⟨win0_14.index t (0 : Fin 3), by have := (idx_facts t).2.2.1.1; omega⟩
/-- The tile of 256 points a grid point works on. -/
def tileOf (t : Fin cfg0.N) : Fin 16 := ⟨win0_14.index t (1 : Fin 3), by have := (idx_facts t).2.2.1.2.1; omega⟩

/-- Any array read through window 0's block at point `t`: row `r` of the block is row `8192 tile + r` of the batch. -/
theorem win0_read (t : Fin cfg0.N) (Z : (⟨S4x131072x6, .f32⟩ : BufTy).Contents (Elt Ideal)) (r : Fin 8192) (q : Fin 6) :
    ((cfg0.win 0).blk t).view.read (Elt Ideal) Z (ix3 (0 : Fin 1) r q)
      = Z (ix3 (batchOf t) (⟨(tileOf t).val * 8192 + r.val, by omega⟩ : Fin 131072) q) := by
  obtain ⟨⟨e0, e1, e2⟩, -, -, -, -⟩ := idx_facts t
  show Z (((cfg0.win 0).blk t).view.emb (ix3 (0 : Fin 1) r q)) = _
  refine congrArg Z (funext fun ax => Fin.ext ?_)
  match ax with
  | ⟨0, _⟩ => show win0_0.index t (0 : Fin 3) * 1 + 1 * 0 = win0_14.index t (0 : Fin 3); omega
  | ⟨1, _⟩ => show win0_0.index t (1 : Fin 3) * 8192 + 1 * r.val = win0_14.index t (1 : Fin 3) * 8192 + r.val; omega
  | ⟨2, _⟩ => show win0_0.index t (2 : Fin 3) * 6 + 1 * q.val = q.val; omega

theorem arr0_eq (c : Dev nD) : V m c (Pipeline.arrRef spec0 0) = V m c main_v21 := rfl

theorem iblk0_eq (c : Dev nD) (t : Fin cfg0.N) : B0 m c t = ((cfg0.win 0).blk t).view.read (Elt Ideal) (V m c main_v21) := by
  show iblk m c 0 t = _
  unfold iblk
  rw [arr0_eq]

/-- Window 0's block at point `t`: row `r` is point `256 tile + r / 32`, neighbour `r % 32` of the coordinate relation tensor. -/
theorem blk0_read (c : Dev nD) (t : Fin cfg0.N) (r : Fin 8192) (q : Fin 6) :
    B0 m c t (ix3 (0 : Fin 1) r q)
      = relX (A0 m c) (A2 m c) (ix4 (batchOf t) (⟨(tileOf t).val * 256 + r.val / 32, by omega⟩ : Fin 4096)
          (⟨r.val % 32, by omega⟩ : Fin 32) q) := by
  rw [iblk0_eq, win0_read, V_v21]
  refine shapeCast_apply _ _ _ _ ?_
  show ((⟨4, ![4, 4096, 32, 6]⟩ : Shape).rowMajor _).val = ((⟨3, ![4, 131072, 6]⟩ : Shape).rowMajor _).val
  rw [Shape.rowMajor_val_four, Shape.rowMajor_val_three]
  show (((batchOf t).val * 4096 + ((tileOf t).val * 256 + r.val / 32)) * 32 + r.val % 32) * 6 + q.val
    = ((batchOf t).val * 131072 + ((tileOf t).val * 8192 + r.val)) * 6 + q.val
  omega

/-- Any array read through window 1's block at point `t`, likewise. -/
theorem win1_read (t : Fin cfg0.N) (Z : (⟨S4x131072x64, .f32⟩ : BufTy).Contents (Elt Ideal)) (r : Fin 8192) (q : Fin 64) :
    ((cfg0.win 1).blk t).view.read (Elt Ideal) Z (ix3 (0 : Fin 1) r q)
      = Z (ix3 (batchOf t) (⟨(tileOf t).val * 8192 + r.val, by omega⟩ : Fin 131072) q) := by
  obtain ⟨-, ⟨e0, e1, e2⟩, -, -, -⟩ := idx_facts t
  show Z (((cfg0.win 1).blk t).view.emb (ix3 (0 : Fin 1) r q)) = _
  refine congrArg Z (funext fun ax => Fin.ext ?_)
  match ax with
  | ⟨0, _⟩ => show win0_1.index t (0 : Fin 3) * 1 + 1 * 0 = win0_14.index t (0 : Fin 3); omega
  | ⟨1, _⟩ => show win0_1.index t (1 : Fin 3) * 8192 + 1 * r.val = win0_14.index t (1 : Fin 3) * 8192 + r.val; omega
  | ⟨2, _⟩ => show win0_1.index t (2 : Fin 3) * 64 + 1 * q.val = q.val; omega

theorem arr1_eq (c : Dev nD) : V m c (Pipeline.arrRef spec0 1) = V m c main_v22 := rfl

theorem iblk1_eq (c : Dev nD) (t : Fin cfg0.N) : B1 m c t = ((cfg0.win 1).blk t).view.read (Elt Ideal) (V m c main_v22) := by
  show iblk m c 1 t = _
  unfold iblk
  rw [arr1_eq]

/-- Window 1's block at point `t`: row `r` is point `256 tile + r / 32`, neighbour `r % 32` of the feature relation tensor. -/
theorem blk1_read (c : Dev nD) (t : Fin cfg0.N) (r : Fin 8192) (q : Fin 64) :
    B1 m c t (ix3 (0 : Fin 1) r q)
      = relY (A1 m c) (A2 m c) (ix4 (batchOf t) (⟨(tileOf t).val * 256 + r.val / 32, by omega⟩ : Fin 4096)
          (⟨r.val % 32, by omega⟩ : Fin 32) q) := by
  rw [iblk1_eq, win1_read, V_v22]
  refine shapeCast_apply _ _ _ _ ?_
  show ((⟨4, ![4, 4096, 32, 64]⟩ : Shape).rowMajor _).val = ((⟨3, ![4, 131072, 64]⟩ : Shape).rowMajor _).val
  rw [Shape.rowMajor_val_four, Shape.rowMajor_val_three]
  show (((batchOf t).val * 4096 + ((tileOf t).val * 256 + r.val / 32)) * 32 + r.val % 32) * 64 + q.val
    = ((batchOf t).val * 131072 + ((tileOf t).val * 8192 + r.val)) * 64 + q.val
  omega

/-! The weight windows hold their whole arrays, the weight matrices transposed. -/
theorem win2_read (t : Fin cfg0.N) (Z : (⟨S6x64, .f32⟩ : BufTy).Contents (Elt Ideal)) (q : Fin 6) (o : Fin 64) :
    ((cfg0.win 2).blk t).view.read (Elt Ideal) Z (ix2 q o) = Z (ix2 q o) := by
  have hf := (idx_facts t).2.2.2.1
  show Z (((cfg0.win 2).blk t).view.emb (ix2 q o)) = _
  refine congrArg Z (funext fun ax => Fin.ext ?_)
  match ax with
  | ⟨0, _⟩ => show win0_2.index t (0 : Fin 2) * 6 + 1 * q.val = q.val; omega
  | ⟨1, _⟩ => show win0_2.index t (1 : Fin 2) * 64 + 1 * o.val = o.val; omega
theorem arr2_eq (c : Dev nD) : V m c (Pipeline.arrRef spec0 2) = V m c main_v23 := rfl
theorem blk2_read (c : Dev nD) (t : Fin cfg0.N) (q : Fin 6) (o : Fin 64) : B2 m c t (ix2 q o) = A3 m c (ix2 o q) := by
  have hb : B2 m c t = ((cfg0.win 2).blk t).view.read (Elt Ideal) (V m c main_v23) := by
    show iblk m c 2 t = _
    unfold iblk
    rw [arr2_eq]
  rw [hb, win2_read, V_v23]
  exact transpose_ix2_apply _ _ q o

theorem win5_read (t : Fin cfg0.N) (Z : (⟨S64x64, .f32⟩ : BufTy).Contents (Elt Ideal)) (q : Fin 64) (o : Fin 64) :
    ((cfg0.win 5).blk t).view.read (Elt Ideal) Z (ix2 q o) = Z (ix2 q o) := by
  have hf := (idx_facts t).2.2.2.1
  show Z (((cfg0.win 5).blk t).view.emb (ix2 q o)) = _
  refine congrArg Z (funext fun ax => Fin.ext ?_)
  match ax with
  | ⟨0, _⟩ => show win0_5.index t (0 : Fin 2) * 64 + 1 * q.val = q.val; omega
  | ⟨1, _⟩ => show win0_5.index t (1 : Fin 2) * 64 + 1 * o.val = o.val; omega
theorem arr5_eq (c : Dev nD) : V m c (Pipeline.arrRef spec0 5) = V m c main_v24 := rfl
theorem blk5_read (c : Dev nD) (t : Fin cfg0.N) (q : Fin 64) (o : Fin 64) : B5 m c t (ix2 q o) = A6 m c (ix2 o q) := by
  have hb : B5 m c t = ((cfg0.win 5).blk t).view.read (Elt Ideal) (V m c main_v24) := by
    show iblk m c 5 t = _
    unfold iblk
    rw [arr5_eq]
  rw [hb, win5_read, V_v24]
  exact transpose_ix2_apply _ _ q o

theorem win8_read (t : Fin cfg0.N) (Z : (⟨S128x128, .f32⟩ : BufTy).Contents (Elt Ideal)) (q : Fin 128) (o : Fin 128) :
    ((cfg0.win 8).blk t).view.read (Elt Ideal) Z (ix2 q o) = Z (ix2 q o) := by
  have hf := (idx_facts t).2.2.2.1
  show Z (((cfg0.win 8).blk t).view.emb (ix2 q o)) = _
  refine congrArg Z (funext fun ax => Fin.ext ?_)
  match ax with
  | ⟨0, _⟩ => show win0_8.index t (0 : Fin 2) * 128 + 1 * q.val = q.val; omega
  | ⟨1, _⟩ => show win0_8.index t (1 : Fin 2) * 128 + 1 * o.val = o.val; omega
theorem arr8_eq (c : Dev nD) : V m c (Pipeline.arrRef spec0 8) = V m c main_v25 := rfl
theorem blk8_read (c : Dev nD) (t : Fin cfg0.N) (q : Fin 128) (o : Fin 128) : B8 m c t (ix2 q o) = A9 m c (ix2 o q) := by
  have hb : B8 m c t = ((cfg0.win 8).blk t).view.read (Elt Ideal) (V m c main_v25) := by
    show iblk m c 8 t = _
    unfold iblk
    rw [arr8_eq]
  rw [hb, win8_read, V_v25]
  exact transpose_ix2_apply _ _ q o

theorem win11_read (t : Fin cfg0.N) (Z : (⟨S128x64, .f32⟩ : BufTy).Contents (Elt Ideal)) (q : Fin 128) (o : Fin 64) :
    ((cfg0.win 11).blk t).view.read (Elt Ideal) Z (ix2 q o) = Z (ix2 q o) := by
  have hf := (idx_facts t).2.2.2.1
  show Z (((cfg0.win 11).blk t).view.emb (ix2 q o)) = _
  refine congrArg Z (funext fun ax => Fin.ext ?_)
  match ax with
  | ⟨0, _⟩ => show win0_11.index t (0 : Fin 2) * 128 + 1 * q.val = q.val; omega
  | ⟨1, _⟩ => show win0_11.index t (1 : Fin 2) * 64 + 1 * o.val = o.val; omega
theorem arr11_eq (c : Dev nD) : V m c (Pipeline.arrRef spec0 11) = V m c main_v26 := rfl
theorem blk11_read (c : Dev nD) (t : Fin cfg0.N) (q : Fin 128) (o : Fin 64) : B11 m c t (ix2 q o) = A12 m c (ix2 o q) := by
  have hb : B11 m c t = ((cfg0.win 11).blk t).view.read (Elt Ideal) (V m c main_v26) := by
    show iblk m c 11 t = _
    unfold iblk
    rw [arr11_eq]
  rw [hb, win11_read, V_v26]
  exact transpose_ix2_apply _ _ q o

/-! The scale and shift windows hold their whole arrays, as launched. -/
theorem win3_read (t : Fin cfg0.N) (Z : (⟨S64, .f32⟩ : BufTy).Contents (Elt Ideal)) (o : Fin 64) :
    ((cfg0.win 3).blk t).view.read (Elt Ideal) Z (ix1 o) = Z (ix1 o) := by
  have hf := (idx_facts t).2.2.2.2
  show Z (((cfg0.win 3).blk t).view.emb (ix1 o)) = _
  refine congrArg Z (funext fun ax => Fin.ext ?_)
  match ax with
  | ⟨0, _⟩ => show win0_3.index t (0 : Fin 1) * 64 + 1 * o.val = o.val; omega
theorem arr3_eq (c : Dev nD) : V m c (Pipeline.arrRef spec0 3) = V m c main_arg4 := rfl
theorem blk3_eq (c : Dev nD) (t : Fin cfg0.N) : B3 m c t = A4 m c := by
  have hb : B3 m c t = ((cfg0.win 3).blk t).view.read (Elt Ideal) (V m c main_arg4) := by
    show iblk m c 3 t = _
    unfold iblk
    rw [arr3_eq]
  funext y
  obtain ⟨o, rfl⟩ : ∃ o : Fin 64, y = ix1 o := ⟨y 0, eq_ix1 y⟩
  rw [hb, win3_read, V_main_arg4]

theorem win4_read (t : Fin cfg0.N) (Z : (⟨S64, .f32⟩ : BufTy).Contents (Elt Ideal)) (o : Fin 64) :
    ((cfg0.win 4).blk t).view.read (Elt Ideal) Z (ix1 o) = Z (ix1 o) := by
  have hf := (idx_facts t).2.2.2.2
  show Z (((cfg0.win 4).blk t).view.emb (ix1 o)) = _
  refine congrArg Z (funext fun ax => Fin.ext ?_)
  match ax with
  | ⟨0, _⟩ => show win0_4.index t (0 : Fin 1) * 64 + 1 * o.val = o.val; omega
theorem arr4_eq (c : Dev nD) : V m c (Pipeline.arrRef spec0 4) = V m c main_arg5 := rfl
theorem blk4_eq (c : Dev nD) (t : Fin cfg0.N) : B4 m c t = A5 m c := by
  have hb : B4 m c t = ((cfg0.win 4).blk t).view.read (Elt Ideal) (V m c main_arg5) := by
    show iblk m c 4 t = _
    unfold iblk
    rw [arr4_eq]
  funext y
  obtain ⟨o, rfl⟩ : ∃ o : Fin 64, y = ix1 o := ⟨y 0, eq_ix1 y⟩
  rw [hb, win4_read, V_main_arg5]

theorem win6_read (t : Fin cfg0.N) (Z : (⟨S64, .f32⟩ : BufTy).Contents (Elt Ideal)) (o : Fin 64) :
    ((cfg0.win 6).blk t).view.read (Elt Ideal) Z (ix1 o) = Z (ix1 o) := by
  have hf := (idx_facts t).2.2.2.2
  show Z (((cfg0.win 6).blk t).view.emb (ix1 o)) = _
  refine congrArg Z (funext fun ax => Fin.ext ?_)
  match ax with
  | ⟨0, _⟩ => show win0_6.index t (0 : Fin 1) * 64 + 1 * o.val = o.val; omega
theorem arr6_eq (c : Dev nD) : V m c (Pipeline.arrRef spec0 6) = V m c main_arg7 := rfl
theorem blk6_eq (c : Dev nD) (t : Fin cfg0.N) : B6 m c t = A7 m c := by
  have hb : B6 m c t = ((cfg0.win 6).blk t).view.read (Elt Ideal) (V m c main_arg7) := by
    show iblk m c 6 t = _
    unfold iblk
    rw [arr6_eq]
  funext y
  obtain ⟨o, rfl⟩ : ∃ o : Fin 64, y = ix1 o := ⟨y 0, eq_ix1 y⟩
  rw [hb, win6_read, V_main_arg7]

theorem win7_read (t : Fin cfg0.N) (Z : (⟨S64, .f32⟩ : BufTy).Contents (Elt Ideal)) (o : Fin 64) :
    ((cfg0.win 7).blk t).view.read (Elt Ideal) Z (ix1 o) = Z (ix1 o) := by
  have hf := (idx_facts t).2.2.2.2
  show Z (((cfg0.win 7).blk t).view.emb (ix1 o)) = _
  refine congrArg Z (funext fun ax => Fin.ext ?_)
  match ax with
  | ⟨0, _⟩ => show win0_7.index t (0 : Fin 1) * 64 + 1 * o.val = o.val; omega
theorem arr7_eq (c : Dev nD) : V m c (Pipeline.arrRef spec0 7) = V m c main_arg8 := rfl
theorem blk7_eq (c : Dev nD) (t : Fin cfg0.N) : B7 m c t = A8 m c := by
  have hb : B7 m c t = ((cfg0.win 7).blk t).view.read (Elt Ideal) (V m c main_arg8) := by
    show iblk m c 7 t = _
    unfold iblk
    rw [arr7_eq]
  funext y
  obtain ⟨o, rfl⟩ : ∃ o : Fin 64, y = ix1 o := ⟨y 0, eq_ix1 y⟩
  rw [hb, win7_read, V_main_arg8]

theorem win9_read (t : Fin cfg0.N) (Z : (⟨S128, .f32⟩ : BufTy).Contents (Elt Ideal)) (o : Fin 128) :
    ((cfg0.win 9).blk t).view.read (Elt Ideal) Z (ix1 o) = Z (ix1 o) := by
  have hf := (idx_facts t).2.2.2.2
  show Z (((cfg0.win 9).blk t).view.emb (ix1 o)) = _
  refine congrArg Z (funext fun ax => Fin.ext ?_)
  match ax with
  | ⟨0, _⟩ => show win0_9.index t (0 : Fin 1) * 128 + 1 * o.val = o.val; omega
theorem arr9_eq (c : Dev nD) : V m c (Pipeline.arrRef spec0 9) = V m c main_arg10 := rfl
theorem blk9_eq (c : Dev nD) (t : Fin cfg0.N) : B9 m c t = A10 m c := by
  have hb : B9 m c t = ((cfg0.win 9).blk t).view.read (Elt Ideal) (V m c main_arg10) := by
    show iblk m c 9 t = _
    unfold iblk
    rw [arr9_eq]
  funext y
  obtain ⟨o, rfl⟩ : ∃ o : Fin 128, y = ix1 o := ⟨y 0, eq_ix1 y⟩
  rw [hb, win9_read, V_main_arg10]

theorem win10_read (t : Fin cfg0.N) (Z : (⟨S128, .f32⟩ : BufTy).Contents (Elt Ideal)) (o : Fin 128) :
    ((cfg0.win 10).blk t).view.read (Elt Ideal) Z (ix1 o) = Z (ix1 o) := by
  have hf := (idx_facts t).2.2.2.2
  show Z (((cfg0.win 10).blk t).view.emb (ix1 o)) = _
  refine congrArg Z (funext fun ax => Fin.ext ?_)
  match ax with
  | ⟨0, _⟩ => show win0_10.index t (0 : Fin 1) * 128 + 1 * o.val = o.val; omega
theorem arr10_eq (c : Dev nD) : V m c (Pipeline.arrRef spec0 10) = V m c main_arg11 := rfl
theorem blk10_eq (c : Dev nD) (t : Fin cfg0.N) : B10 m c t = A11 m c := by
  have hb : B10 m c t = ((cfg0.win 10).blk t).view.read (Elt Ideal) (V m c main_arg11) := by
    show iblk m c 10 t = _
    unfold iblk
    rw [arr10_eq]
  funext y
  obtain ⟨o, rfl⟩ : ∃ o : Fin 128, y = ix1 o := ⟨y 0, eq_ix1 y⟩
  rw [hb, win10_read, V_main_arg11]

theorem win12_read (t : Fin cfg0.N) (Z : (⟨S64, .f32⟩ : BufTy).Contents (Elt Ideal)) (o : Fin 64) :
    ((cfg0.win 12).blk t).view.read (Elt Ideal) Z (ix1 o) = Z (ix1 o) := by
  have hf := (idx_facts t).2.2.2.2
  show Z (((cfg0.win 12).blk t).view.emb (ix1 o)) = _
  refine congrArg Z (funext fun ax => Fin.ext ?_)
  match ax with
  | ⟨0, _⟩ => show win0_12.index t (0 : Fin 1) * 64 + 1 * o.val = o.val; omega
theorem arr12_eq (c : Dev nD) : V m c (Pipeline.arrRef spec0 12) = V m c main_arg13 := rfl
theorem blk12_eq (c : Dev nD) (t : Fin cfg0.N) : B12 m c t = A13 m c := by
  have hb : B12 m c t = ((cfg0.win 12).blk t).view.read (Elt Ideal) (V m c main_arg13) := by
    show iblk m c 12 t = _
    unfold iblk
    rw [arr12_eq]
  funext y
  obtain ⟨o, rfl⟩ : ∃ o : Fin 64, y = ix1 o := ⟨y 0, eq_ix1 y⟩
  rw [hb, win12_read, V_main_arg13]

theorem win13_read (t : Fin cfg0.N) (Z : (⟨S64, .f32⟩ : BufTy).Contents (Elt Ideal)) (o : Fin 64) :
    ((cfg0.win 13).blk t).view.read (Elt Ideal) Z (ix1 o) = Z (ix1 o) := by
  have hf := (idx_facts t).2.2.2.2
  show Z (((cfg0.win 13).blk t).view.emb (ix1 o)) = _
  refine congrArg Z (funext fun ax => Fin.ext ?_)
  match ax with
  | ⟨0, _⟩ => show win0_13.index t (0 : Fin 1) * 64 + 1 * o.val = o.val; omega
theorem arr13_eq (c : Dev nD) : V m c (Pipeline.arrRef spec0 13) = V m c main_arg14 := rfl
theorem blk13_eq (c : Dev nD) (t : Fin cfg0.N) : B13 m c t = A14 m c := by
  have hb : B13 m c t = ((cfg0.win 13).blk t).view.read (Elt Ideal) (V m c main_arg14) := by
    show iblk m c 13 t = _
    unfold iblk
    rw [arr13_eq]
  funext y
  obtain ⟨o, rfl⟩ : ∃ o : Fin 64, y = ix1 o := ⟨y 0, eq_ix1 y⟩
  rw [hb, win13_read, V_main_arg14]

end Cert.KernelIdeal.RelValue

end
-- ==== Proof.KernelValue.lean ====
/-
  The kernel's value: what each grid point writes back is its block of the specification's per-point array, the blocks
  cover the array, and the lines after the region exchange its two last axes and add the features.
-/
import proofs.«179133_j48026324303943_1_alg».proof.Proof.KernelBlocks

set_option maxRecDepth 16384

noncomputable section

namespace Cert.KernelIdeal.RelValue

open Idealize.ShloMosaic Idealize.ShloMosaic.TcCoe Idealize.ShloMosaic.ValueIdx Idealize.SL.Sem Idealize.ShloMosaic.StableHlo
open Cert.KernelIdeal Cert.KernelIdeal.Gen Cert.RelNet
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification's per-point array of the launch contents: what the region's output array ends holding. -/
abbrev pts (c : Dev nD) : S4x4096x64.Idx → EReal :=
  perPoint (relX (A0 m c) (A2 m c)) (relY (A1 m c) (A2 m c)) (A3 m c) (A4 m c) (A5 m c) (A6 m c) (A7 m c) (A8 m c)
    (A9 m c) (A10 m c) (A11 m c) (A12 m c) (A13 m c) (A14 m c)

/-- What grid point `t` writes back is block `t` of the per-point array: rows `256 tile … 256 tile + 255` of its batch. -/
theorem flushed_eq (c : Dev nD) (t : Fin cfg0.N) :
    (dats m 0 c).flushed 14 t = ((cfg0.win 14).blk t).view.read (Elt Ideal) (pts m c) := by
  show (cfg0.win 14).cut (grid0.coords t) ((dats m 0 c).after 14 t) = _
  rw [after0_14]
  unfold out0_14
  rw [View.canon_unit_zero hz3]
  simp only [View.ld_unit_zero (S := S1x8192x6) hz3, View.ld_unit_zero (S := S6x64) hz2, View.ld_unit_zero (S := S64) hz1,
    View.ld_unit_zero (S := S1x8192x64) hz3, View.ld_unit_zero (S := S64x64) hz2, View.ld_unit_zero (S := S128x128) hz2,
    View.ld_unit_zero (S := S128) hz1, View.ld_unit_zero (S := S128x64) hz2]
  funext j
  obtain ⟨u, r, ch, rfl⟩ : ∃ (u : Fin 1) (r : Fin 256) (ch : Fin 64), j = ix3 u r ch := ⟨j 0, j 1, j 2, eq_ix3 j⟩
  obtain rfl : u = 0 := Subsingleton.elim _ _
  show k0_pay1 (F := Ideal) (k0_pay2 (B0 m c t) (B2 m c t) (B3 m c t) (B4 m c t) (B1 m c t) (B5 m c t) (B6 m c t) (B7 m c t))
      (k0_pay3 (B8 m c t)) (B9 m c t) (B10 m c t) (B11 m c t) (B12 m c t) (B13 m c t) (ix3 (0 : Fin 1) r ch)
    = pts m c (((cfg0.win 14).blk t).view.emb (ix3 (0 : Fin 1) r ch))
  refine (Body.block_value (relX (A0 m c) (A2 m c)) (relY (A1 m c) (A2 m c)) (A3 m c) (A6 m c) (A9 m c) (A12 m c)
    (B0 m c t) (B1 m c t) (B2 m c t) (B3 m c t) (B4 m c t) (B5 m c t) (B6 m c t) (B7 m c t) (B8 m c t) (B9 m c t) (B10 m c t)
    (B11 m c t) (B12 m c t) (B13 m c t) (batchOf t) (tileOf t) (blk0_read m c t) (blk1_read m c t) (blk2_read m c t)
    (blk5_read m c t) (blk8_read m c t) (blk11_read m c t) r ch).trans ?_
  rw [blk3_eq, blk4_eq, blk6_eq, blk7_eq, blk9_eq, blk10_eq, blk12_eq, blk13_eq]
  have h142 := (idx_facts t).2.2.1.2.2
  have he : ((cfg0.win 14).blk t).view.emb (ix3 (0 : Fin 1) r ch)
      = (ix3 (batchOf t) (⟨(tileOf t).val * 256 + r.val, by omega⟩ : Fin 4096) ch : S4x4096x64.Idx) :=
    funext fun ax => Fin.ext (by
      match ax with
      | ⟨0, _⟩ => show win0_14.index t (0 : Fin 3) * 1 + 1 * 0 = win0_14.index t (0 : Fin 3); omega
      | ⟨1, _⟩ => show win0_14.index t (1 : Fin 3) * 256 + 1 * r.val = win0_14.index t (1 : Fin 3) * 256 + r.val; omega
      | ⟨2, _⟩ => show win0_14.index t (2 : Fin 3) * 64 + 1 * ch.val = ch.val; omega)
  exact (congrArg (pts m c) he).symm

/-- An index of the output array is in point `t`'s block iff each coordinate is in the block's range on its axis. -/
theorem mem_blk (t : Fin cfg0.N) (i : S4x4096x64.Idx) :
    i ∈ ((cfg0.win 14).blk t).view.set ↔ ∀ a : Fin 3, win0_14.index t a * S1x256x64.size a ≤ (i a).val
      ∧ (i a).val < win0_14.index t a * S1x256x64.size a + S1x256x64.size a := by
  show i ∈ ((View.whole main_v27).slice (win0_14.rect t)).set ↔ _
  rw [View.set_slice_whole, Rect.mem_set_unit]
  exact Iff.rfl

/-- Every index of the output array is in some grid point's block: batch `i 0`, tile `i 1 / 256`. -/
theorem cover (i : S4x4096x64.Idx) :
    ∃ t : Fin cfg0.N, (cfg0.win 14).flush t = true ∧ i ∈ ((cfg0.win 14).blk t).view.set := by
  have h0 : (i 0).val < 4 := (i 0).isLt
  have h1 : (i 1).val < 4096 := (i 1).isLt
  have h2 : (i 2).val < 64 := (i 2).isLt
  obtain ⟨t, ht⟩ := idx_onto ⟨(i 0).val, h0⟩ ⟨(i 1).val / 256, by omega⟩
  have q0 : win0_14.index t (0 : Fin 3) = (i 0).val := congrFun ht 0
  have q1 : win0_14.index t (1 : Fin 3) = (i 1).val / 256 := congrFun ht 1
  have q2 : win0_14.index t (2 : Fin 3) = 0 := congrFun ht 2
  refine ⟨t, flush0_14 t, ?_⟩
  rw [mem_blk]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 256 ≤ (i 1).val ∧ (i 1).val < win0_14.index t (1 : Fin 3) * 256 + 256; omega
  | ⟨2, _⟩ => show win0_14.index t (2 : Fin 3) * 64 ≤ (i 2).val ∧ (i 2).val < win0_14.index t (2 : Fin 3) * 64 + 64; omega

/-- The region's output array after the run is the per-point array. -/
theorem final (c : Dev nD) : (dats m 0 c).arrAt 14 cfg0.N = pts m c :=
  (dats m 0 c).arrAt_eq_of_cover 14 (pts m c) (fun t _ => flushed_eq m c t) cover

/-- The specification's result of the launch contents. -/
abbrev res (c : Dev nD) : S4x64x4096.Idx → EReal :=
  result (relX (A0 m c) (A2 m c)) (relY (A1 m c) (A2 m c)) (A3 m c) (A4 m c) (A5 m c) (A6 m c) (A7 m c) (A8 m c)
    (A9 m c) (A10 m c) (A11 m c) (A12 m c) (A13 m c) (A14 m c) (A1 m c)

/-- The lines after the region — the output array with its two last axes exchanged, plus the features — leave the
    specification's result. -/
theorem tail_eq (c : Dev nD) :
    Pipeline.afterTail₀ cfgs (dats m) 0 (V0 m) [hostOps1] c main_v29 = res m c := by
  unfold Pipeline.afterTail₀
  show StableHlo.after hostOps1 _ (Proc.devRef .tc main_v29) = _
  after_results
  have hv : Pipeline.withArrays (cfgs 0).spec c (V0 m c) (fun w => (dats m 0 c).arrAt w (cfgs 0).N) (Proc.devRef .tc main_v27)
      = pts m c := (Pipeline.withArrays_arr spec0 launch0.win.arr_inj c _ _ 14).trans (final m c)
  have ha : Pipeline.withArrays (cfgs 0).spec c (V0 m c) (fun w => (dats m 0 c).arrAt w (cfgs 0).N) (Proc.devRef .tc main_arg1)
      = A1 m c :=
    (Pipeline.withArrays_of_ne _ c (V0 m c) _ main_arg1 (by exact (by decide : ∀ w, Pipeline.arrRef spec0 w ≠ main_arg1))).trans
      (V_main_arg1 m c)
  rw [hv, ha]
  funext i
  obtain ⟨b, ch, n, rfl⟩ : ∃ (b : Fin 4) (ch : Fin 64) (n : Fin 4096), i = ix3 b ch n := ⟨i 0, i 1, i 2, eq_ix3 i⟩
  rw [addf_apply, transpose_ix3_021_apply]
  rfl

/-- The kernel's run, read: every weakly fair execution terminates with the first result the coordinates as launched, the
    second the specification's result of the launch contents, and the arguments unchanged. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v29) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    have a0 := ((h c).2 main_arg0 (Pipeline.mem_restRefs_of main_arg0 (by decide) (by decide))).trans (W_main_arg0 m (dats m) c)
    ⟨a0,
      ((h c).2 main_v29 (Pipeline.mem_restRefs_of main_v29 (by decide) (by decide))).trans (tail_eq m c),
      a0,
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).2 main_arg12 (Pipeline.mem_restRefs_of main_arg12 (by decide) (by decide))).trans (W_main_arg12 m (dats m) c),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c)))⟩)
    (run_main m ρ)

end Cert.KernelIdeal.RelValue

end
-- ==== Proof.lean ====
/-
  The certificate of a point-cloud relation block: per point and neighbour, a shared layer over six relative coordinates
  beside a shared layer over 64 summed features, a hidden shared layer over the two laid side by side, the mean over the
  32 neighbours, an output shared layer, and the input features added back with the channel axis in front.

  The kernel gathers the neighbours and builds the two relation tensors in plain host lines, merges the (point, neighbour)
  axes into rows, hands the weight matrices over transposed, and runs one region over a grid of (batch, tile of 256 points):
  each point of the grid reads 8192 rows — 256 points with their 32 neighbours each — and writes 256 rows of the output.
  The reference does the same arithmetic on the unmerged four-axis tensors with contractions over the last axes.

  At the extended reals the two are one function (`Cert.RelNet.result`, Proof/Spec.lean): a matrix product into the zero
  accumulator is the plain sum over the contracted axis on both sides, the weight at (k, o) of a transposed matrix is the
  weight at (o, k), the kernel's regrouping of rows 32 r … 32 r + 31 is the reference's sum over the neighbour axis, and
  both divide that sum by the same word of 32. No law beyond reindexing a finite sum is used, so the inputs' finiteness is
  never opened. The reference's stages are read in Proof/RefSide.lean; the kernel's body at a block in
  Proof/KernelBody.lean, the blocks in Proof/KernelBlocks.lean over the arrays of Proof/KernelArrays.lean, and the whole
  run in Proof/KernelValue.lean. Both programs build the relation tensors by the same lines, so those are equal as terms.
-/
import proofs.«179133_j48026324303943_1_alg».proof.Defs
import proofs.«179133_j48026324303943_1_alg».proof.Proof.Gen.Kernel
import proofs.«179133_j48026324303943_1_alg».proof.Proof.Gen.Kernel.Skeleton
import proofs.«179133_j48026324303943_1_alg».proof.Proof.Gen.Kernel.Launch
import proofs.«179133_j48026324303943_1_alg».proof.Proof.Gen.Kernel.Points
import proofs.«179133_j48026324303943_1_alg».proof.Proof.Gen.Kernel.Frame
import proofs.«179133_j48026324303943_1_alg».proof.Proof.Gen.KernelIdeal
import proofs.«179133_j48026324303943_1_alg».proof.Proof.Gen.KernelIdeal.Skeleton
import proofs.«179133_j48026324303943_1_alg».proof.Proof.Gen.KernelIdeal.Launch
import proofs.«179133_j48026324303943_1_alg».proof.Proof.Gen.KernelIdeal.Points
import proofs.«179133_j48026324303943_1_alg».proof.Proof.Gen.KernelIdeal.Frame
import proofs.«179133_j48026324303943_1_alg».proof.Proof.Gen.ReferenceIdeal
import proofs.«179133_j48026324303943_1_alg».proof.Proof.Gen.ReferenceIdeal.Run
import proofs.«179133_j48026324303943_1_alg».proof.Proof.Gen.ReferenceIdeal.Read
import proofs.«179133_j48026324303943_1_alg».proof.Proof.Gen.Pre_finite_inputs
import proofs.«179133_j48026324303943_1_alg».proof.Proof.RefSide
import proofs.«179133_j48026324303943_1_alg».proof.Proof.KernelValue
import Idealize.ShloMosaic.Adequacy
import Idealize.ShloMosaic.Init

noncomputable section

namespace Cert.Proof

open Idealize.ShloMosaic Idealize.SL.Sem

/-- The coordinate relation tensor is one term in both programs: the same lines build it. -/
theorem relX_eq (x0 : (⟨Cert.KernelIdeal.S4x4096x3, .f32⟩ : BufTy).Contents (Elt Ideal))
    (x2 : (⟨Cert.KernelIdeal.S4096x32, .i32⟩ : BufTy).Contents (Elt Ideal)) :
    Cert.KernelIdeal.RelValue.relX x0 x2 = Cert.ReferenceIdeal.Read.val_main_v17 (F := Ideal) x0 x2 := rfl

/-- So is the feature relation tensor. -/
theorem relY_eq (x1 : (⟨Cert.KernelIdeal.S4x64x4096, .f32⟩ : BufTy).Contents (Elt Ideal))
    (x2 : (⟨Cert.KernelIdeal.S4096x32, .i32⟩ : BufTy).Contents (Elt Ideal)) :
    Cert.KernelIdeal.RelValue.relY x1 x2 = Cert.ReferenceIdeal.Read.val_main_v20 (F := Ideal) x1 x2 := rfl

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the results dropped
    exact fun m ρ _ => (θ_run Cert.ReferenceIdeal.defs _ _).mono (fun _ h c => (h c).2.2)
      (Cert.ReferenceIdeal.Value.run (F := Ideal) m ρ)
  · -- both runs end at the specification's result of the same launch contents
    intro m ρ m' ρ' _ hagree
    refine ⟨fun c => m ((c.tc : Thread Cert.KernelIdeal.nD Cert.KernelIdeal.τ).loc Cert.KernelIdeal.main_arg0),
      fun c => Cert.KernelIdeal.RelValue.res m c, Cert.KernelIdeal.RelValue.run m ρ, ?_⟩
    refine (θ_run Cert.ReferenceIdeal.defs _ _).mono (fun r h c => ⟨(h c).1.trans (hagree c).1, (h c).2.1.trans ?_, (h c).2.2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v58_eq, Cert.RelNet.Ref.result_ref, e0, e1, e2, e3, e4, e5, e6, e7, e8, e9, e10, e11, e12,
      e13, e14, ← relX_eq, ← relY_eq]⟩

end Cert.Proof

end
